-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_

variable [Facts]

def fn_part2 {F : FTy → Type} [FloatOps F] (main_arg9 : FVec F S4x128x128 .f32) (main_arg10 : FVec F S4x128 .f32) (main_v33 : IVec S_ 1) : IVec S_ 1 :=
  let main_v34 : FVec F S4x128x128 .f32 := Host.absf main_arg9
  let main_cst_12 : FVec F S_ .f32 := constant S_ .f32 0x7F800000#32
  let main_v35 : FVec F S4x128x128 .f32 := broadcastInDim S4x128x128 ![] bcast_S_S4x128x128 main_cst_12
  let main_v36 : IVec S4x128x128 1 := cmpf .olt main_v34 main_v35
  let main_c_13 : IVec S_ 1 := constantI S_ 1 1#1
  let main_v37 : IVec S_ 1 := (fun x v => Host.reduce IntOp.andi x v reducesTo_S4x128x128_S_d0_1_2 h_S_) main_v36 main_c_13
  let main_v38 : IVec S_ 1 := andi main_v33 main_v37
  let main_v39 : FVec F S4x128 .f32 := Host.absf main_arg10
  let main_cst_14 : FVec F S_ .f32 := constant S_ .f32 0x7F800000#32
  let main_v40 : FVec F S4x128 .f32 := broadcastInDim S4x128 ![] bcast_S_S4x128 main_cst_14
  let main_v41 : IVec S4x128 1 := cmpf .olt main_v39 main_v40
  let main_c_15 : IVec S_ 1 := constantI S_ 1 1#1
  let main_v42 : IVec S_ 1 := (fun x v => Host.reduce IntOp.andi x v reducesTo_S4x128_S_d0_1 h_S_) main_v41 main_c_15
  let main_v43 : IVec S_ 1 := andi main_v38 main_v42
  main_v43

def fn_part1 {F : FTy → Type} [FloatOps F] (main_arg6 : FVec F S4x128 .f32) (main_arg7 : FVec F S4x128 .f32) (main_arg8 : FVec F S4x128 .f32) (main_arg9 : FVec F S4x128x128 .f32) (main_arg10 : FVec F S4x128 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S4x128 .f32 := Host.absf main_arg6
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128 .f32 := Host.absf main_arg7
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4x128 .f32 := Host.absf main_arg8
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x600000 32) (main_arg2 : IVec S600000 32) (main_arg3 : FVec F S128x128 .f32) (main_arg4 : FVec F S128 .f32) (main_arg5 : FVec F S4x128x128 .f32) (main_arg6 : FVec F S4x128 .f32) (main_arg7 : FVec F S4x128 .f32) (main_arg8 : FVec F S4x128 .f32) (main_arg9 : FVec F S4x128x128 .f32) (main_arg10 : FVec F S4x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S4x128x128 .f32 := Host.absf main_arg5
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S1x600000 : Shape := ⟨2, ![1, 600000]⟩
abbrev S_ : Shape := ⟨0, ![]⟩
abbrev S600000x1 : Shape := ⟨2, ![600000, 1]⟩
abbrev S600000x128 : Shape := ⟨2, ![600000, 128]⟩
abbrev S200000x128 : Shape := ⟨2, ![200000, 128]⟩
abbrev S4x50000x128 : Shape := ⟨3, ![4, 50000, 128]⟩
abbrev S1000x128 : Shape := ⟨2, ![1000, 128]⟩
abbrev S4x1000x128 : Shape := ⟨3, ![4, 1000, 128]⟩
abbrev S1x1000x128 : Shape := ⟨3, ![1, 1000, 128]⟩
abbrev S1x128x128 : Shape := ⟨3, ![1, 128, 128]⟩
abbrev S1x128 : Shape := ⟨2, ![1, 128]⟩
abbrev S4x1x128 : Shape := ⟨3, ![4, 1, 128]⟩

abbrev nBuf : Space → Nat
  | .hbm => 63
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S4x128x128, .f32⟩
  | .hbm, ⟨6, _⟩ => ⟨S4x128, .f32⟩
  | .hbm, ⟨7, _⟩ => ⟨S4x128, .f32⟩
  | .hbm, ⟨8, _⟩ => ⟨S4x128, .f32⟩
  | .hbm, ⟨9, _⟩ => ⟨S4x128x128, .f32⟩
  | .hbm, ⟨10, _⟩ => ⟨S4x128, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S_, .i32⟩
  | .hbm, ⟨20, _⟩ => ⟨S600000, .i32⟩
  | .hbm, ⟨21, _⟩ => ⟨S600000, .i1⟩
  | .hbm, ⟨22, _⟩ => ⟨S_, .i32⟩
  | .hbm, ⟨23, _⟩ => ⟨S600000, .i32⟩
  | .hbm, ⟨24, _⟩ => ⟨S600000, .i32⟩
  | .hbm, ⟨25, _⟩ => ⟨S600000, .i32⟩
  | .hbm, ⟨26, _⟩ => ⟨S600000x1, .i32⟩
  | .hbm, ⟨27, _⟩ => ⟨S600000x128, .f32⟩
  | .hbm, ⟨28, _⟩ => ⟨S_, .f32⟩
  | .hbm, ⟨29, _⟩ => ⟨S200000x128, .f32⟩
  | .hbm, ⟨30, _⟩ => ⟨S600000x1, .i32⟩
  | .hbm, ⟨31, _⟩ => ⟨S200000x128, .f32⟩
  | .hbm, ⟨32, _⟩ => ⟨S4x50000x128, .f32⟩
  | .hbm, ⟨33, _⟩ => ⟨S4x50000x128, .f32⟩
  | .hbm, ⟨34, _⟩ => ⟨S_, .f32⟩
  | .hbm, ⟨35, _⟩ => ⟨S4x128, .f32⟩
  | .hbm, ⟨36, _⟩ => ⟨S_, .f32⟩
  | .hbm, ⟨37, _⟩ => ⟨S4x128, .f32⟩
  | .hbm, ⟨38, _⟩ => ⟨S4x128, .f32⟩
  | .hbm, ⟨39, _⟩ => ⟨S_, .i32⟩
  | .hbm, ⟨40, _⟩ => ⟨S_, .f32⟩
  | .hbm, ⟨41, _⟩ => ⟨S4x128, .f32⟩
  | .hbm, ⟨42, _⟩ => ⟨S4x1x128, .f32⟩
  | .hbm, ⟨43, _⟩ => ⟨S_, .f32⟩
  | .hbm, ⟨44, _⟩ => ⟨S4x1x128, .f32⟩
  | .hbm, ⟨45, _⟩ => ⟨S4x1x128, .f32⟩
  | .hbm, ⟨46, _⟩ => ⟨S4x50000x128, .f32⟩
  | .hbm, ⟨47, _⟩ => ⟨S4x50000x128, .f32⟩
  | .hbm, ⟨48, _⟩ => ⟨S4x50000x128, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S4x128, .f32⟩
  | .hbm, ⟨54, _⟩ => ⟨S4x128, .f32⟩
  | .hbm, ⟨55, _⟩ => ⟨S4x128, .f32⟩
  | .hbm, ⟨56, _⟩ => ⟨S_, .f32⟩
  | .hbm, ⟨57, _⟩ => ⟨S_, .i1⟩
  | .hbm, ⟨58, _⟩ => ⟨S_, .f32⟩
  | .hbm, ⟨59, _⟩ => ⟨S_, .f32⟩
  | .hbm, ⟨60, _⟩ => ⟨S4x128, .f32⟩
  | .hbm, ⟨61, _⟩ => ⟨S4x128, .f32⟩
  | .hbm, ⟨62, _⟩ => ⟨S50000x128, .f32⟩
  | .local _ .vmem, ⟨0, _⟩ => ⟨S1000x128, .f32⟩
  | .local _ .vmem, ⟨1, _⟩ => ⟨S1000x128, .f32⟩
  | .local _ .vmem, ⟨2, _⟩ => ⟨S4x1000x128, .f32⟩
  | .local _ .vmem, ⟨3, _⟩ => ⟨S4x1000x128, .f32⟩
  | .local _ .vmem, ⟨4, _⟩ => ⟨S4x128x128, .f32⟩
  | .local _ .vmem, ⟨5, _⟩ => ⟨S4x128, .f32⟩
  | .local _ .vmem, ⟨6, _⟩ => ⟨S4x1000x128, .f32⟩
  | .local _ .vmem, ⟨7, _⟩ => ⟨S4x1000x128, .f32⟩
  | .local _ .vmem, ⟨8, _⟩ => ⟨S4x1000x128, .f32⟩
  | .local _ .vmem, ⟨9, _⟩ => ⟨S4x1000x128, .f32⟩
  | .local _ .vmem, ⟨10, _⟩ => ⟨S4x128, .f32⟩
  | .local _ .vmem, ⟨11, _⟩ => ⟨S4x128, .f32⟩
  | .local _ .vmem, ⟨12, _⟩ => ⟨S4x128, .f32⟩
  | .local _ .vmem, ⟨13, _⟩ => ⟨S4x128, .f32⟩
  | .local _ .vmem, ⟨14, _⟩ => ⟨S4x128x128, .f32⟩
  | .local _ .vmem, ⟨15, _⟩ => ⟨S4x128, .f32⟩
  | .local _ .vmem, ⟨16, _⟩ => ⟨S1000x128, .f32⟩
  | .local _ .vmem, ⟨17, _⟩ => ⟨S1000x128, .f32⟩
  | .local _ .vmem, ⟨18, _⟩ => ⟨S128x128, .f32⟩
  | .local _ .vmem, ⟨19, _⟩ => ⟨S128, .f32⟩
  | .local _ .vmem, ⟨20, _⟩ => ⟨S1000x128, .f32⟩
  | .local _ .vmem, ⟨21, _⟩ => ⟨S1000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_c_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_call0_cst : Ref sig .tc := ⟨.hbm, 40, rfl⟩
abbrev main_call0_v0 : Ref sig .tc := ⟨.hbm, 41, rfl⟩
abbrev main_call0_v1 : Ref sig .tc := ⟨.hbm, 42, rfl⟩
abbrev main_call0_cst_0 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_v7 : Ref sig .tc := ⟨.hbm, 49, rfl⟩
abbrev main_call0_cst_1 : Ref sig .tc := ⟨.hbm, 50, rfl⟩
abbrev main_call0_v8 : Ref sig .tc := ⟨.hbm, 51, rfl⟩
abbrev main_call0_cst_2 : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_cst_3 : Ref sig .tc := ⟨.hbm, 56, rfl⟩
abbrev main_call0_v12 : Ref sig .tc := ⟨.hbm, 57, rfl⟩
abbrev main_call0_cst_4 : Ref sig .tc := ⟨.hbm, 58, rfl⟩
abbrev main_call0_call0_v0 : Ref sig .tc := ⟨.hbm, 59, rfl⟩
abbrev main_call0_call0_v1 : Ref sig .tc := ⟨.hbm, 60, rfl⟩
abbrev main_v22 : Ref sig .tc := ⟨.hbm, 61, rfl⟩
abbrev main_v23 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc1_sem8_0 : DmaSem sig := 18
abbrev cc1_sem9_0 : DmaSem sig := 19
abbrev cc1_sem10_0 : DmaSem sig := 20
abbrev cc1_sem10_1 : DmaSem sig := 21

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x1000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4x1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S4x128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S4x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S1000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S200000x128 : S_.BroadcastsInDim S200000x128 (![] : Fin 0 → Fin S200000x128.rank)
  shapeCasts_S200000x128_S4x50000x128 : S200000x128.ShapeCasts S4x50000x128
  inb_S1000x128_S1000x128_0_0 : ∀ a, (![0, 0] : Fin 2 → Nat) a + S1000x128.size a ≤ S1000x128.size a
  h_S1000x128 : 0 < S1000x128.numel
  inb_S4x1000x128_S1x1000x128_0_0_0 : ∀ a, (![0, 0, 0] : Fin 3 → Nat) a + S1x1000x128.size a ≤ S4x1000x128.size a
  h_S1x1000x128 : 0 < S1x1000x128.numel
  shapeCasts_S1x1000x128_S1000x128 : S1x1000x128.ShapeCasts S1000x128
  bitsLt_bf16_f32 : FTy.bits .bf16 < FTy.bits .f32
  inb_S4x128x128_S1x128x128_0_0_0 : ∀ a, (![0, 0, 0] : Fin 3 → Nat) a + S1x128x128.size a ≤ S4x128x128.size a
  h_S1x128x128 : 0 < S1x128x128.numel
  shapeCasts_S1x128x128_S128x128 : S1x128x128.ShapeCasts S128x128
  inb_S4x128_S1x128_0_0 : ∀ a, (![0, 0] : Fin 2 → Nat) a + S1x128.size a ≤ S4x128.size a
  h_S1x128 : 0 < S1x128.numel
  shapeCasts_S1x128_S128 : S1x128.ShapeCasts S128
  shapeCasts_S128_S1x128 : S128.ShapeCasts S1x128
  broadcasts_S1x128_S1000x128 : S1x128.Broadcasts S1000x128
  shapeCasts_S1000x128_S1x1000x128 : S1000x128.ShapeCasts S1x1000x128
  inb_S4x1000x128_S1x1000x128_1_0_0 : ∀ a, (![1, 0, 0] : Fin 3 → Nat) a + S1x1000x128.size a ≤ S4x1000x128.size a
  inb_S4x128x128_S1x128x128_1_0_0 : ∀ a, (![1, 0, 0] : Fin 3 → Nat) a + S1x128x128.size a ≤ S4x128x128.size a
  inb_S4x128_S1x128_1_0 : ∀ a, (![1, 0] : Fin 2 → Nat) a + S1x128.size a ≤ S4x128.size a
  inb_S4x1000x128_S1x1000x128_2_0_0 : ∀ a, (![2, 0, 0] : Fin 3 → Nat) a + S1x1000x128.size a ≤ S4x1000x128.size a
  inb_S4x128x128_S1x128x128_2_0_0 : ∀ a, (![2, 0, 0] : Fin 3 → Nat) a + S1x128x128.size a ≤ S4x128x128.size a
  inb_S4x128_S1x128_2_0 : ∀ a, (![2, 0] : Fin 2 → Nat) a + S1x128.size a ≤ S4x128.size a
  inb_S4x1000x128_S1x1000x128_3_0_0 : ∀ a, (![3, 0, 0] : Fin 3 → Nat) a + S1x1000x128.size a ≤ S4x1000x128.size a
  inb_S4x128x128_S1x128x128_3_0_0 : ∀ a, (![3, 0, 0] : Fin 3 → Nat) a + S1x128x128.size a ≤ S4x128x128.size a
  inb_S4x128_S1x128_3_0 : ∀ a, (![3, 0] : Fin 2 → Nat) a + S1x128.size a ≤ S4x128.size a
  reducesTo_S4x50000x128_S4x128_d1 : S4x50000x128.ReducesTo [1] S4x128
  h_S_ : 0 < S_.numel
  bcast_S_S4x128 : S_.BroadcastsInDim S4x128 (![] : Fin 0 → Fin S4x128.rank)
  bcast_S4x128_S4x1x128_0_2 : S4x128.BroadcastsInDim S4x1x128 (![0, 2] : Fin 2 → Fin S4x1x128.rank)
  bcast_S_S4x1x128 : S_.BroadcastsInDim S4x1x128 (![] : Fin 0 → Fin S4x1x128.rank)
  bcast_S4x1x128_S4x50000x128_0_1_2 : S4x1x128.BroadcastsInDim S4x50000x128 (![0, 1, 2] : Fin 3 → Fin S4x50000x128.rank)
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  gather_S50000x128_S600000x1_S600000x128_1_0_n_n_0_1_1128_wf : GatherDims.WF S50000x128 S600000x1 S600000x128 [1] [0] [] [0] [] 1 ![1, 128]
  scatter_S200000x128_S600000x1_S600000x128_1_0_0_1_wf : ScatterDims.WF S200000x128 S600000x1 S600000x128 [1] [0] [0] 1
  dot_S1000x128_S128x128_S1000x128_1_0_0_1_n_n_wf : DotDims.WF S1000x128 S128x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x1000x128.size a ≤ S4x50000x128.size a
  hwx0_1 : ∀ i : grid0.Coords, EltTy.bits .f32 = 32 ∨ (Rect.block (s := S4x50000x128) S4x1000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x128x128.size a ≤ S4x128x128.size a
  hwx0_2 : ∀ i : grid0.Coords, EltTy.bits .f32 = 32 ∨ (Rect.block (s := S4x128x128) S4x128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x128.size a ≤ S4x128.size a
  hwx0_3 : ∀ i : grid0.Coords, EltTy.bits .f32 = 32 ∨ (Rect.block (s := S4x128) S4x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x1000x128.size a ≤ S4x50000x128.size a
  hwx0_4 : ∀ i : grid0.Coords, EltTy.bits .f32 = 32 ∨ (Rect.block (s := S4x50000x128) S4x1000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x1000x128.size a ≤ S4x50000x128.size a
  hwx1_0 : ∀ i : grid1.Coords, EltTy.bits .f32 = 32 ∨ (Rect.block (s := S4x50000x128) S4x1000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4x128.size a ≤ S4x128.size a
  hwx1_1 : ∀ i : grid1.Coords, EltTy.bits .f32 = 32 ∨ (Rect.block (s := S4x128) S4x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4x128.size a ≤ S4x128.size a
  hwx1_2 : ∀ i : grid1.Coords, EltTy.bits .f32 = 32 ∨ (Rect.block (s := S4x128) S4x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4x128.size a ≤ S4x128.size a
  hwx1_3 : ∀ i : grid1.Coords, EltTy.bits .f32 = 32 ∨ (Rect.block (s := S4x128) S4x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4x128.size a ≤ S4x128.size a
  hwx1_4 : ∀ i : grid1.Coords, EltTy.bits .f32 = 32 ∨ (Rect.block (s := S4x128) S4x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S4x128x128.size a ≤ S4x128x128.size a
  hwx1_5 : ∀ i : grid1.Coords, EltTy.bits .f32 = 32 ∨ (Rect.block (s := S4x128x128) S4x128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S4x128.size a ≤ S4x128.size a
  hwx1_6 : ∀ i : grid1.Coords, EltTy.bits .f32 = 32 ∨ (Rect.block (s := S4x128) S4x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1000x128.size a ≤ S50000x128.size a
  hwx1_7 : ∀ i : grid1.Coords, EltTy.bits .f32 = 32 ∨ (Rect.block (s := S50000x128) S1000x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128.size a ≤ S128.size a
  hwx1_9 : ∀ i : grid1.Coords, EltTy.bits .f32 = 32 ∨ (Rect.block (s := S128) S128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1000x128.size a ≤ S50000x128.size a
  hwx1_10 : ∀ i : grid1.Coords, EltTy.bits .f32 = 32 ∨ (Rect.block (s := S50000x128) S1000x128.size (cc1_transform_10 i) (hinb1_10 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S4x1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S4x128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S4x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S4x1000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v18) S4x1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S4x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S4x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S4x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S4x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S4x128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S4x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg0) S1000x128.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_arg3) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg4) S128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v23) S1000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S1x600000 : Shape := ⟨2, ![1, 600000]⟩
abbrev S_ : Shape := ⟨0, ![]⟩
abbrev S600000x1 : Shape := ⟨2, ![600000, 1]⟩
abbrev S600000x128 : Shape := ⟨2, ![600000, 128]⟩
abbrev S200000x128 : Shape := ⟨2, ![200000, 128]⟩
abbrev S4x50000x128 : Shape := ⟨3, ![4, 50000, 128]⟩
abbrev S1x50000x128 : Shape := ⟨3, ![1, 50000, 128]⟩
abbrev S4x1x128 : Shape := ⟨3, ![4, 1, 128]⟩
abbrev S1x128 : Shape := ⟨2, ![1, 128]⟩

abbrev nBuf : Space → Nat
  | .hbm => 98
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S4x128x128, .f32⟩
  | .hbm, ⟨6, _⟩ => ⟨S4x128, .f32⟩
  | .hbm, ⟨7, _⟩ => ⟨S4x128, .f32⟩
  | .hbm, ⟨8, _⟩ => ⟨S4x128, .f32⟩
  | .hbm, ⟨9, _⟩ => ⟨S4x128x128, .f32⟩
  | .hbm, ⟨10, _⟩ => ⟨S4x128, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S_, .i32⟩
  | .hbm, ⟨20, _⟩ => ⟨S600000, .i32⟩
  | .hbm, ⟨21, _⟩ => ⟨S600000, .i1⟩
  | .hbm, ⟨22, _⟩ => ⟨S_, .i32⟩
  | .hbm, ⟨23, _⟩ => ⟨S600000, .i32⟩
  | .hbm, ⟨24, _⟩ => ⟨S600000, .i32⟩
  | .hbm, ⟨25, _⟩ => ⟨S600000, .i32⟩
  | .hbm, ⟨26, _⟩ => ⟨S600000x1, .i32⟩
  | .hbm, ⟨27, _⟩ => ⟨S600000x128, .f32⟩
  | .hbm, ⟨28, _⟩ => ⟨S_, .f32⟩
  | .hbm, ⟨29, _⟩ => ⟨S200000x128, .f32⟩
  | .hbm, ⟨30, _⟩ => ⟨S600000x1, .i32⟩
  | .hbm, ⟨31, _⟩ => ⟨S200000x128, .f32⟩
  | .hbm, ⟨32, _⟩ => ⟨S4x50000x128, .f32⟩
  | .hbm, ⟨33, _⟩ => ⟨S1x50000x128, .f32⟩
  | .hbm, ⟨34, _⟩ => ⟨S4x50000x128, .f32⟩
  | .hbm, ⟨35, _⟩ => ⟨S4x50000x128, .f32⟩
  | .hbm, ⟨36, _⟩ => ⟨S4x50000x128, .f32⟩
  | .hbm, ⟨37, _⟩ => ⟨S4x1x128, .f32⟩
  | .hbm, ⟨38, _⟩ => ⟨S4x50000x128, .f32⟩
  | .hbm, ⟨39, _⟩ => ⟨S4x50000x128, .f32⟩
  | .hbm, ⟨40, _⟩ => ⟨S_, .f32⟩
  | .hbm, ⟨41, _⟩ => ⟨S4x128, .f32⟩
  | .hbm, ⟨42, _⟩ => ⟨S4x1x128, .f32⟩
  | .hbm, ⟨43, _⟩ => ⟨S_, .f32⟩
  | .hbm, ⟨44, _⟩ => ⟨S4x1x128, .f32⟩
  | .hbm, ⟨45, _⟩ => ⟨S4x1x128, .f32⟩
  | .hbm, ⟨46, _⟩ => ⟨S_, .i32⟩
  | .hbm, ⟨47, _⟩ => ⟨S_, .f32⟩
  | .hbm, ⟨48, _⟩ => ⟨S4x128, .f32⟩
  | .hbm, ⟨49, _⟩ => ⟨S4x1x128, .f32⟩
  | .hbm, ⟨50, _⟩ => ⟨S_, .f32⟩
  | .hbm, ⟨51, _⟩ => ⟨S4x1x128, .f32⟩
  | .hbm, ⟨52, _⟩ => ⟨S4x1x128, .f32⟩
  | .hbm, ⟨53, _⟩ => ⟨S4x50000x128, .f32⟩
  | .hbm, ⟨54, _⟩ => ⟨S4x50000x128, .f32⟩
  | .hbm, ⟨55, _⟩ => ⟨S4x50000x128, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S4x128, .f32⟩
  | .hbm, ⟨61, _⟩ => ⟨S4x1x128, .f32⟩
  | .hbm, ⟨62, _⟩ => ⟨S4x1x128, .f32⟩
  | .hbm, ⟨63, _⟩ => ⟨S4x1x128, .f32⟩
  | .hbm, ⟨64, _⟩ => ⟨S_, .f32⟩
  | .hbm, ⟨65, _⟩ => ⟨S_, .i1⟩
  | .hbm, ⟨66, _⟩ => ⟨S_, .f32⟩
  | .hbm, ⟨67, _⟩ => ⟨S_, .f32⟩
  | .hbm, ⟨68, _⟩ => ⟨S4x1x128, .f32⟩
  | .hbm, ⟨69, _⟩ => ⟨S4x1x128, .f32⟩
  | .hbm, ⟨70, _⟩ => ⟨S4x50000x128, .f32⟩
  | .hbm, ⟨71, _⟩ => ⟨S4x50000x128, .f32⟩
  | .hbm, ⟨72, _⟩ => ⟨S_, .f32⟩
  | .hbm, ⟨73, _⟩ => ⟨S4x1x128, .f32⟩
  | .hbm, ⟨74, _⟩ => ⟨S4x1x128, .f32⟩
  | .hbm, ⟨75, _⟩ => ⟨S4x1x128, .f32⟩
  | .hbm, ⟨76, _⟩ => ⟨S4x50000x128, .f32⟩
  | .hbm, ⟨77, _⟩ => ⟨S4x50000x128, .f32⟩
  | .hbm, ⟨78, _⟩ => ⟨S4x1x128, .f32⟩
  | .hbm, ⟨79, _⟩ => ⟨S4x50000x128, .f32⟩
  | .hbm, ⟨80, _⟩ => ⟨S4x50000x128, .f32⟩
  | .hbm, ⟨81, _⟩ => ⟨S4x1x128, .f32⟩
  | .hbm, ⟨82, _⟩ => ⟨S4x50000x128, .f32⟩
  | .hbm, ⟨83, _⟩ => ⟨S4x50000x128, .f32⟩
  | .hbm, ⟨84, _⟩ => ⟨S_, .f32⟩
  | .hbm, ⟨85, _⟩ => ⟨S4x50000x128, .f32⟩
  | .hbm, ⟨86, _⟩ => ⟨S4x50000x128, .f32⟩
  | .hbm, ⟨87, _⟩ => ⟨S4x50000x128, .f32⟩
  | .hbm, ⟨88, _⟩ => ⟨S4x1x128, .f32⟩
  | .hbm, ⟨89, _⟩ => ⟨S4x50000x128, .f32⟩
  | .hbm, ⟨90, _⟩ => ⟨S4x50000x128, .f32⟩
  | .hbm, ⟨91, _⟩ => ⟨S50000x128, .f32⟩
  | .hbm, ⟨92, _⟩ => ⟨S1x128, .f32⟩
  | .hbm, ⟨93, _⟩ => ⟨S50000x128, .f32⟩
  | .hbm, ⟨94, _⟩ => ⟨S50000x128, .f32⟩
  | .hbm, ⟨95, _⟩ => ⟨S_, .f32⟩
  | .hbm, ⟨96, _⟩ => ⟨S50000x128, .f32⟩
  | .hbm, ⟨97, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_c_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_c_4 : Ref sig .tc := ⟨.hbm, 46, rfl⟩
abbrev main_call0_cst : Ref sig .tc := ⟨.hbm, 47, rfl⟩
abbrev main_call0_v0 : Ref sig .tc := ⟨.hbm, 48, rfl⟩
abbrev main_call0_v1 : Ref sig .tc := ⟨.hbm, 49, rfl⟩
abbrev main_call0_cst_0 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_call0_v7 : Ref sig .tc := ⟨.hbm, 56, rfl⟩
abbrev main_call0_cst_1 : Ref sig .tc := ⟨.hbm, 57, rfl⟩
abbrev main_call0_v8 : Ref sig .tc := ⟨.hbm, 58, rfl⟩
abbrev main_call0_cst_2 : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_v12 : Ref sig .tc := ⟨.hbm, 63, rfl⟩
abbrev main_call0_cst_3 : Ref sig .tc := ⟨.hbm, 64, rfl⟩
abbrev main_call0_v13 : Ref sig .tc := ⟨.hbm, 65, rfl⟩
abbrev main_call0_cst_4 : Ref sig .tc := ⟨.hbm, 66, rfl⟩
abbrev main_call0_call0_v0 : Ref sig .tc := ⟨.hbm, 67, rfl⟩
abbrev main_call0_call0_v1 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_cst_5 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_call1_cst : Ref sig .tc := ⟨.hbm, 84, rfl⟩
abbrev main_call1_v0 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_cst_6 : Ref sig .tc := ⟨.hbm, 95, rfl⟩
abbrev main_v52 : Ref sig .tc := ⟨.hbm, 96, rfl⟩
abbrev main_v53 : Ref sig .tc := ⟨.hbm, 97, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S200000x128 : S_.BroadcastsInDim S200000x128 (![] : Fin 0 → Fin S200000x128.rank)
  shapeCasts_S200000x128_S4x50000x128 : S200000x128.ShapeCasts S4x50000x128
  bcast_S50000x128_S1x50000x128_1_2 : S50000x128.BroadcastsInDim S1x50000x128 (![1, 2] : Fin 2 → Fin S1x50000x128.rank)
  bcast_S1x50000x128_S4x50000x128_0_1_2 : S1x50000x128.BroadcastsInDim S4x50000x128 (![0, 1, 2] : Fin 3 → Fin S4x50000x128.rank)
  bcast_S4x128_S4x1x128_0_2 : S4x128.BroadcastsInDim S4x1x128 (![0, 2] : Fin 2 → Fin S4x1x128.rank)
  bcast_S4x1x128_S4x50000x128_0_1_2 : S4x1x128.BroadcastsInDim S4x50000x128 (![0, 1, 2] : Fin 3 → Fin S4x50000x128.rank)
  reducesTo_S4x50000x128_S4x128_d1 : S4x50000x128.ReducesTo [1] S4x128
  h_S_ : 0 < S_.numel
  bcast_S_S4x1x128 : S_.BroadcastsInDim S4x1x128 (![] : Fin 0 → Fin S4x1x128.rank)
  bcast_S_S4x50000x128 : S_.BroadcastsInDim S4x50000x128 (![] : Fin 0 → Fin S4x50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S4x50000x128_S50000x128_d0 : S4x50000x128.ReducesTo [0] S50000x128
  gather_S50000x128_S600000x1_S600000x128_1_0_n_n_0_1_1128_wf : GatherDims.WF S50000x128 S600000x1 S600000x128 [1] [0] [] [0] [] 1 ![1, 128]
  scatter_S200000x128_S600000x1_S600000x128_1_0_0_1_wf : ScatterDims.WF S200000x128 S600000x1 S600000x128 [1] [0] [0] 1
  dot_S4x50000x128_S4x128x128_S4x50000x128_2_1_1_2_0_0_wf : DotDims.WF S4x50000x128 S4x128x128 S4x50000x128 [2] [1] [1] [2] [0] [0]
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def dot_S4x50000x128_S4x128x128_S4x50000x128_2_1_1_2_0_0 : DotDims S4x50000x128 S4x128x128 S4x50000x128 where
  lhsContracting := [2]
  rhsContracting := [1]
  lhsNonContracting := [1]
  rhsNonContracting := [2]
  lhsBatch := [0]
  rhsBatch := [0]
  wf := dot_S4x50000x128_S4x128x128_S4x50000x128_2_1_1_2_0_0_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KStages.lean ====
import proofs.«105238_j51762945852038_1_alg».proof.Proof.Gen.KernelIdeal

/-!
  The host stages of the kernel's program, each as one function of the arrays it reads: the per-relation neighbour
  sums (a gather of the source rows, added into segment relation·50000 + destination), and the per-relation,
  per-channel mean and (biased) variance of the first layer over the 50000 nodes.
-/

noncomputable section

namespace Cert.KernelIdeal.Stages

open Cert.KernelIdeal Cert.KernelIdeal.Gen Idealize.ShloMosaic

variable {F : FTy → Type} [FloatOps F]

/-- The neighbour sums A(r, n, ·): rows of x gathered at the (wrapped) source ids and added into row
    relation·50000 + destination of a zero array, then viewed as [4, 50000, 128]. -/
def agg (x : (⟨S50000x128, .f32⟩ : BufTy).Contents (Elt F)) (ei : (⟨S2x600000, .i32⟩ : BufTy).Contents (Elt F))
    (et : (⟨S600000, .i32⟩ : BufTy).Contents (Elt F)) : (⟨S4x50000x128, .f32⟩ : BufTy).Contents (Elt F) :=
  let row := shapeCast S600000 (extractStridedSlice S1x600000 ![0, 0] ei slices_S2x600000_S1x600000_0_0) shapeCasts_S1x600000_S600000
  let col := shapeCast S600000 (extractStridedSlice S1x600000 ![1, 0] ei slices_S2x600000_S1x600000_1_0) shapeCasts_S1x600000_S600000
  let seg : (⟨S600000, .i32⟩ : BufTy).Contents (Elt F) :=
    addi (muli et (broadcastInDim S600000 ![] bcast_S_S600000 (constantI S_ 32 50000#32))) row
  let colw : (⟨S600000, .i32⟩ : BufTy).Contents (Elt F) :=
    select (cmpi .slt col (broadcastInDim S600000 ![] bcast_S_S600000 (constantI S_ 32 0#32)))
      (addi col (broadcastInDim S600000 ![] bcast_S_S600000 (constantI S_ 32 50000#32))) col
  let xcol : (⟨S600000x128, .f32⟩ : BufTy).Contents (Elt F) :=
    Host.gather gather_S50000x128_S600000x1_S600000x128_1_0_n_n_0_1_1128 x (broadcastInDim S600000x1 ![0] bcast_S600000_S600000x1_0 colw)
  let flat : (⟨S200000x128, .f32⟩ : BufTy).Contents (Elt F) :=
    Host.scatterAdd scatter_S200000x128_S600000x1_S600000x128_1_0_0_1
      (broadcastInDim S200000x128 ![] bcast_S_S200000x128 (constant S_ .f32 0x00000000#32))
      (broadcastInDim S600000x1 ![0] bcast_S600000_S600000x1_0 seg) xcol
  shapeCast S4x50000x128 flat shapeCasts_S200000x128_S4x50000x128

/-- The mean over the nodes, [4, 128]: the sum over axis 1 divided by 50000. -/
def mean2 (z : (⟨S4x50000x128, .f32⟩ : BufTy).Contents (Elt F)) : (⟨S4x128, .f32⟩ : BufTy).Contents (Elt F) :=
  Host.divf (Host.reduceAdd z (constant S_ .f32 0x00000000#32) reducesTo_S4x50000x128_S4x128_d1 h_S_)
    (broadcastInDim S4x128 ![] bcast_S_S4x128 (constant S_ .f32 0x47435000#32))

/-- The centred squares (z − mean)², [4, 50000, 128], the mean taken with a kept unit axis. -/
def sq (z : (⟨S4x50000x128, .f32⟩ : BufTy).Contents (Elt F)) : (⟨S4x50000x128, .f32⟩ : BufTy).Contents (Elt F) :=
  let mu : (⟨S4x1x128, .f32⟩ : BufTy).Contents (Elt F) :=
    Host.divf (broadcastInDim S4x1x128 ![0, 2] bcast_S4x128_S4x1x128_0_2
        (Host.reduceAdd z (constant S_ .f32 0x00000000#32) reducesTo_S4x50000x128_S4x128_d1 h_S_))
      (broadcastInDim S4x1x128 ![] bcast_S_S4x1x128 (constant S_ .f32 0x47435000#32))
  let d : (⟨S4x50000x128, .f32⟩ : BufTy).Contents (Elt F) :=
    subf z (broadcastInDim S4x50000x128 ![0, 1, 2] bcast_S4x1x128_S4x50000x128_0_1_2 mu)
  mulf d d

/-- The divisor 50000 − ddof, ddof = 0 converted to a float. -/
def cnt : (⟨S_, .f32⟩ : BufTy).Contents (Elt F) :=
  subf (constant S_ .f32 0x47435000#32) (sitofp .f32 (constantI S_ 32 0#32))

/-- The variance over the nodes, [4, 128]: the sum of the centred squares over the divisor where the divisor is
    positive, else the not-a-number word. -/
def var2 (z : (⟨S4x50000x128, .f32⟩ : BufTy).Contents (Elt F)) : (⟨S4x128, .f32⟩ : BufTy).Contents (Elt F) :=
  select (broadcastInDim S4x128 ![] bcast_S_S4x128 (cmpf .ogt (cnt (F := F)) (constant S_ .f32 0x00000000#32)))
    (Host.divf (Host.reduceAdd (sq z) (constant S_ .f32 0x00000000#32) reducesTo_S4x50000x128_S4x128_d1 h_S_)
      (broadcastInDim S4x128 ![] bcast_S_S4x128 (cnt (F := F))))
    (broadcastInDim S4x128 ![] bcast_S_S4x128 (id (constant S_ .f32 0x7FC00000#32)))

end Cert.KernelIdeal.Stages

end
-- ==== Proof.KHost.lean ====
import proofs.«105238_j51762945852038_1_alg».proof.Proof.Gen.KernelIdeal.Frame
import proofs.«105238_j51762945852038_1_alg».proof.Proof.KStages
import Idealize.ShloMosaic.Lib.StableHlo.Run

/-!
  What the kernel's program holds in the arrays its two regions read, when each region is entered: the argument arrays
  as launched, the neighbour sums, the first region's output array, and its mean and variance over the nodes.
-/

set_option maxRecDepth 16384

noncomputable section

namespace Cert.KernelIdeal.HostVals

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## At the first region's entry: the host operations before it write no argument array -/

theorem V1_arg0 (c : Dev nD) : V1 m ρ c main_arg0 = m ((c : Thread nD τ).loc main_arg0) := by
  show StableHlo.after hostOps0 (W0 m ρ c) (Proc.devRef .tc main_arg0) = _
  after_results_simp
theorem V1_arg3 (c : Dev nD) : V1 m ρ c main_arg3 = m ((c : Thread nD τ).loc main_arg3) := by
  show StableHlo.after hostOps0 (W0 m ρ c) (Proc.devRef .tc main_arg3) = _
  after_results_simp
theorem V1_arg4 (c : Dev nD) : V1 m ρ c main_arg4 = m ((c : Thread nD τ).loc main_arg4) := by
  show StableHlo.after hostOps0 (W0 m ρ c) (Proc.devRef .tc main_arg4) = _
  after_results_simp
theorem V1_arg5 (c : Dev nD) : V1 m ρ c main_arg5 = m ((c : Thread nD τ).loc main_arg5) := by
  show StableHlo.after hostOps0 (W0 m ρ c) (Proc.devRef .tc main_arg5) = _
  after_results_simp
theorem V1_arg6 (c : Dev nD) : V1 m ρ c main_arg6 = m ((c : Thread nD τ).loc main_arg6) := by
  show StableHlo.after hostOps0 (W0 m ρ c) (Proc.devRef .tc main_arg6) = _
  after_results_simp
theorem V1_arg7 (c : Dev nD) : V1 m ρ c main_arg7 = m ((c : Thread nD τ).loc main_arg7) := by
  show StableHlo.after hostOps0 (W0 m ρ c) (Proc.devRef .tc main_arg7) = _
  after_results_simp
theorem V1_arg8 (c : Dev nD) : V1 m ρ c main_arg8 = m ((c : Thread nD τ).loc main_arg8) := by
  show StableHlo.after hostOps0 (W0 m ρ c) (Proc.devRef .tc main_arg8) = _
  after_results_simp
theorem V1_arg9 (c : Dev nD) : V1 m ρ c main_arg9 = m ((c : Thread nD τ).loc main_arg9) := by
  show StableHlo.after hostOps0 (W0 m ρ c) (Proc.devRef .tc main_arg9) = _
  after_results_simp
theorem V1_arg10 (c : Dev nD) : V1 m ρ c main_arg10 = m ((c : Thread nD τ).loc main_arg10) := by
  show StableHlo.after hostOps0 (W0 m ρ c) (Proc.devRef .tc main_arg10) = _
  after_results_simp

/-- The neighbour sums the first region reads. -/
theorem V1_v17 (c : Dev nD) : V1 m ρ c main_v17
    = Stages.agg (m ((c : Thread nD τ).loc main_arg0)) (m ((c : Thread nD τ).loc main_arg1)) (m ((c : Thread nD τ).loc main_arg2)) := by
  show StableHlo.after hostOps0 (W0 m ρ c) (Proc.devRef .tc main_v17) = _
  after_results_simp
  rfl

/-! ## At the first region's exit: only its output array changed -/

theorem V2_arg_main_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (V1_arg0 m ρ c)
theorem V2_arg_main_arg3 (c : Dev nD) : W2 m ρ c (Proc.devRef .tc main_arg3) = m ((c : Thread nD τ).loc main_arg3) :=
  (W2_of_ne m ρ c main_arg3 (by decide)).trans (V1_arg3 m ρ c)
theorem V2_arg_main_arg4 (c : Dev nD) : W2 m ρ c (Proc.devRef .tc main_arg4) = m ((c : Thread nD τ).loc main_arg4) :=
  (W2_of_ne m ρ c main_arg4 (by decide)).trans (V1_arg4 m ρ c)
theorem V2_arg_main_arg7 (c : Dev nD) : W2 m ρ c (Proc.devRef .tc main_arg7) = m ((c : Thread nD τ).loc main_arg7) :=
  (W2_of_ne m ρ c main_arg7 (by decide)).trans (V1_arg7 m ρ c)
theorem V2_arg_main_arg8 (c : Dev nD) : W2 m ρ c (Proc.devRef .tc main_arg8) = m ((c : Thread nD τ).loc main_arg8) :=
  (W2_of_ne m ρ c main_arg8 (by decide)).trans (V1_arg8 m ρ c)
theorem V2_arg_main_arg9 (c : Dev nD) : W2 m ρ c (Proc.devRef .tc main_arg9) = m ((c : Thread nD τ).loc main_arg9) :=
  (W2_of_ne m ρ c main_arg9 (by decide)).trans (V1_arg9 m ρ c)
theorem V2_arg_main_arg10 (c : Dev nD) : W2 m ρ c (Proc.devRef .tc main_arg10) = m ((c : Thread nD τ).loc main_arg10) :=
  (W2_of_ne m ρ c main_arg10 (by decide)).trans (V1_arg10 m ρ c)

theorem V2_v18 (c : Dev nD) : W2 m ρ c (Proc.devRef .tc main_v18) = (dat0 (V1 m ρ) c).arrAt 4 cfg0.N :=
  W2_arr m ρ c 4

/-! ## At the second region's entry -/

theorem V4_arg0 (c : Dev nD) : V4 m ρ c main_arg0 = m ((c : Thread nD τ).loc main_arg0) := by
  show StableHlo.after hostOps1_1 (StableHlo.after hostOps1 (W2 m ρ c)) (Proc.devRef .tc main_arg0) = _
  after_results_simp
  exact V2_arg_main_arg0 m ρ c
theorem V4_arg3 (c : Dev nD) : V4 m ρ c main_arg3 = m ((c : Thread nD τ).loc main_arg3) := by
  show StableHlo.after hostOps1_1 (StableHlo.after hostOps1 (W2 m ρ c)) (Proc.devRef .tc main_arg3) = _
  after_results_simp
  exact V2_arg_main_arg3 m ρ c
theorem V4_arg4 (c : Dev nD) : V4 m ρ c main_arg4 = m ((c : Thread nD τ).loc main_arg4) := by
  show StableHlo.after hostOps1_1 (StableHlo.after hostOps1 (W2 m ρ c)) (Proc.devRef .tc main_arg4) = _
  after_results_simp
  exact V2_arg_main_arg4 m ρ c
theorem V4_arg7 (c : Dev nD) : V4 m ρ c main_arg7 = m ((c : Thread nD τ).loc main_arg7) := by
  show StableHlo.after hostOps1_1 (StableHlo.after hostOps1 (W2 m ρ c)) (Proc.devRef .tc main_arg7) = _
  after_results_simp
  exact V2_arg_main_arg7 m ρ c
theorem V4_arg8 (c : Dev nD) : V4 m ρ c main_arg8 = m ((c : Thread nD τ).loc main_arg8) := by
  show StableHlo.after hostOps1_1 (StableHlo.after hostOps1 (W2 m ρ c)) (Proc.devRef .tc main_arg8) = _
  after_results_simp
  exact V2_arg_main_arg8 m ρ c
theorem V4_arg9 (c : Dev nD) : V4 m ρ c main_arg9 = m ((c : Thread nD τ).loc main_arg9) := by
  show StableHlo.after hostOps1_1 (StableHlo.after hostOps1 (W2 m ρ c)) (Proc.devRef .tc main_arg9) = _
  after_results_simp
  exact V2_arg_main_arg9 m ρ c
theorem V4_arg10 (c : Dev nD) : V4 m ρ c main_arg10 = m ((c : Thread nD τ).loc main_arg10) := by
  show StableHlo.after hostOps1_1 (StableHlo.after hostOps1 (W2 m ρ c)) (Proc.devRef .tc main_arg10) = _
  after_results_simp
  exact V2_arg_main_arg10 m ρ c

/-- The first region's output array, as its write-backs left it. -/
theorem V4_v18 (c : Dev nD) : V4 m ρ c main_v18 = (dat0 (V1 m ρ) c).arrAt 4 cfg0.N := by
  show StableHlo.after hostOps1_1 (StableHlo.after hostOps1 (W2 m ρ c)) (Proc.devRef .tc main_v18) = _
  after_results_simp
  exact V2_v18 m ρ c

/-- Its mean over the nodes. -/
theorem V4_v21 (c : Dev nD) : V4 m ρ c main_v21 = Stages.mean2 (V4 m ρ c main_v18) := by
  rw [V4_v18]
  show StableHlo.after hostOps1_1 (StableHlo.after hostOps1 (W2 m ρ c)) (Proc.devRef .tc main_v21) = _
  after_results_simp
  rw [V2_v18]
  rfl

/-- Its variance over the nodes. -/
theorem V4_v22 (c : Dev nD) : V4 m ρ c main_v22 = Stages.var2 (V4 m ρ c main_v18) := by
  rw [V4_v18]
  show StableHlo.after hostOps1_1 (StableHlo.after hostOps1 (W2 m ρ c)) (Proc.devRef .tc main_v22) = _
  after_results_simp
  rw [V2_v18]
  rfl

end Cert.KernelIdeal.HostVals

end
-- ==== Proof.Spec.lean ====
import Idealize.ShloMosaic.PureOps.Ideal.Laws
import Idealize.ShloMosaic.Lib.ValueIdx

/-!
  The mathematics both programs compute, entry by entry, on the extended reals.

  Nodes n < Nn carry 128 features (Nn = 50000 for the whole arrays; the same formulas at Nn = 1000 describe one block of
  1000 consecutive rows); edges are typed by one of 4 relations. With A the per-relation neighbour sums
  (A(r, n, ·) = the sum of x(col e, ·) over the edges e of relation r that point at n), a relation's first linear layer is

      z(r, n, o) = Σ_f (x(n, f) + A(r, n, f)) · W1(r, f, o) + b1(r, o).

  Given per-relation, per-channel statistics mean(r, o) and var(r, o), the normalised and rectified activation is

      a(r, n, o) = max(((z(r, n, o) − mean(r, o)) · rsqrt(var(r, o) + ε)) · γ(r, o) + β(r, o), 0),

  a relation's second linear layer is h(r, n, p) = Σ_o a(r, n, o) · W2(r, o, p) + b2(r, p), and the result is

      out(n, p) = (Σ_k x(n, k) · Wself(k, p) + bself(p)) + (0 + h(0, n, p) + h(1, n, p) + h(2, n, p) + h(3, n, p)).

  ε and the two zeros are kept as the binary words both programs print (they are never evaluated).
-/

open scoped BigOperators

noncomputable section

namespace Cert.Spec

open Idealize.ShloMosaic Idealize.ShloMosaic.ValueIdx

variable {Nn : Nat}

/-- Node features, [Nn, 128] (Nn = 50000 for the whole arrays, 1000 for one block of rows). -/
abbrev SX (Nn : Nat) : Shape := ⟨2, ![Nn, 128]⟩
/-- Per-relation node arrays, [4, Nn, 128]. -/
abbrev SZ (Nn : Nat) : Shape := ⟨3, ![4, Nn, 128]⟩
/-- Per-relation weights, [4, 128, 128]. -/
abbrev SW : Shape := ⟨3, ![4, 128, 128]⟩
/-- Per-relation channel vectors, [4, 128]. -/
abbrev SB : Shape := ⟨2, ![4, 128]⟩
/-- The self-loop weight, [128, 128]. -/
abbrev SWs : Shape := ⟨2, ![128, 128]⟩
/-- The self-loop bias, [128]. -/
abbrev SBs : Shape := ⟨1, ![128]⟩

/-- The word of the normalisation's ε (the float nearest 1e-5). -/
abbrev epsW : EReal := Ideal.ofBits .f32 0x3727C5AC#32
/-- The zero word. -/
abbrev zeroW : EReal := Ideal.ofBits .f32 0x00000000#32

/-- A relation's first linear layer at node n, channel o. -/
def lin1 (x : (SX Nn).Idx → EReal) (A : (SZ Nn).Idx → EReal) (W1 : SW.Idx → EReal) (b1 : SB.Idx → EReal)
    (r : Fin 4) (n : Fin Nn) (o : Fin 128) : EReal :=
  (∑ f : Fin 128, (x (ix2 n f) + A (ix3 r n f)) * W1 (ix3 r f o)) + b1 (ix2 r o)

/-- The first layer as an array [4, 50000, 128]. -/
def Z (x : (SX Nn).Idx → EReal) (A : (SZ Nn).Idx → EReal) (W1 : SW.Idx → EReal) (b1 : SB.Idx → EReal) : (SZ Nn).Idx → EReal :=
  fun i => lin1 x A W1 b1 (i 0) (i 1) (i 2)

/-- The normalised, scaled, shifted and rectified activation. -/
def act (z : (SZ Nn).Idx → EReal) (mean var gamma beta : SB.Idx → EReal) (r : Fin 4) (n : Fin Nn) (o : Fin 128) : EReal :=
  max (((z (ix3 r n o) - mean (ix2 r o)) * Ideal.rsqrt (var (ix2 r o) + epsW)) * gamma (ix2 r o) + beta (ix2 r o)) zeroW

/-- A relation's second linear layer at node n, output channel p. -/
def lin2 (z : (SZ Nn).Idx → EReal) (mean var gamma beta : SB.Idx → EReal) (W2 : SW.Idx → EReal) (b2 : SB.Idx → EReal)
    (r : Fin 4) (n : Fin Nn) (p : Fin 128) : EReal :=
  (∑ o : Fin 128, act z mean var gamma beta r n o * W2 (ix3 r o p)) + b2 (ix2 r p)

/-- The self-loop's linear layer. -/
def selfLoop (x : (SX Nn).Idx → EReal) (Ws : SWs.Idx → EReal) (bs : SBs.Idx → EReal) (n : Fin Nn) (p : Fin 128) : EReal :=
  (∑ k : Fin 128, x (ix2 n k) * Ws (ix2 k p)) + bs (ix1 p)

/-- The result at node n, channel p: the self loop plus the four relations' second layers added, in order, onto zero. -/
def outAt (z : (SZ Nn).Idx → EReal) (mean var gamma beta : SB.Idx → EReal) (W2 : SW.Idx → EReal) (b2 : SB.Idx → EReal)
    (x : (SX Nn).Idx → EReal) (Ws : SWs.Idx → EReal) (bs : SBs.Idx → EReal) (n : Fin Nn) (p : Fin 128) : EReal :=
  selfLoop x Ws bs n p
    + ((((zeroW + lin2 z mean var gamma beta W2 b2 0 n p) + lin2 z mean var gamma beta W2 b2 1 n p)
        + lin2 z mean var gamma beta W2 b2 2 n p) + lin2 z mean var gamma beta W2 b2 3 n p)

/-- The result as an array [50000, 128]. -/
def O (z : (SZ Nn).Idx → EReal) (mean var gamma beta : SB.Idx → EReal) (W2 : SW.Idx → EReal) (b2 : SB.Idx → EReal)
    (x : (SX Nn).Idx → EReal) (Ws : SWs.Idx → EReal) (bs : SBs.Idx → EReal) : (SX Nn).Idx → EReal :=
  fun i => outAt z mean var gamma beta W2 b2 x Ws bs (i 0) (i 1)

/-- Adding four terms onto a start value one after the other is the start value plus their sum over the four
    relations: only associativity of addition on the extended reals. -/
theorem acc_eq_sum (s : EReal) (h : Fin 4 → EReal) : (((s + h 0) + h 1) + h 2) + h 3 = s + ∑ r : Fin 4, h r := by
  rw [Fin.sum_univ_four]; simp only [add_assoc]

end Cert.Spec

end
-- ==== Proof.LibPlainDot.lean ====
import Idealize.ShloMosaic.PureOps.Ideal.Laws
import Idealize.ShloMosaic.Lib.ValueIdx
import Idealize.ShloMosaic.PureOps.Dims

/-!
  A plain matrix product: a left operand of shape [M, K] contracted on its axis 1 against a right operand of shape
  [K, N] contracted on its axis 0, with no batch axes, gives a result of shape [M, N] whose entry (p, q) is the sum
  over k < K of l(p, k) · r(k, q). The dimension record is a variable and its six lists are hypotheses, so the lemmas
  apply to every record of this shape.
-/

open scoped BigOperators

namespace Cert.Lib.PlainDot

open Idealize.ShloMosaic Idealize.ShloMosaic.ValueIdx

variable {M K N : Nat} (d : DotDims ⟨2, ![M, K]⟩ ⟨2, ![K, N]⟩ ⟨2, ![M, N]⟩)

/-- With one contracting axis the contraction shape has rank one. -/
theorem rank_contr_eq_one (hlc : d.lhsContracting = [1]) : d.contr.rank = 1 := by
  rw [d.rank_contr, hlc]; rfl

/-- The one axis of the contraction shape has the extent K of the left operand's axis 1. -/
theorem size_contr_eq (hlc : d.lhsContracting = [1]) :
    d.contr.size ⟨0, by rw [rank_contr_eq_one d hlc]; exact Nat.one_pos⟩ = K := by
  have h0 : 0 < d.lhsContracting.length := by rw [hlc]; exact Nat.one_pos
  rw [d.size_contr 0 h0]
  have h1 : d.lhsContracting[0] = 1 := by simp [hlc]
  rw [h1]; rfl

/-- The left operand's index reads, on its non-contracting axis 0, the result index's row. -/
theorem lhsIdx_zero_val (hln : d.lhsNonContracting = [0]) (hlb : d.lhsBatch = [])
    (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (n : Nat) (h : n < (⟨2, ![M, N]⟩ : Shape).rank), n = 0 → (j ⟨n, h⟩).val = (j 0).val :=
    fun n h e => by subst e; rfl
  exact key _ _ (by simp [hlb, hln])

/-- The right operand's index reads, on its non-contracting axis 1, the result index's column. -/
theorem rhsIdx_one_val (hln : d.lhsNonContracting = [0]) (hrn : d.rhsNonContracting = [1])
    (hlb : d.lhsBatch = []) (hrb : d.rhsBatch = [])
    (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (n : Nat) (h : n < (⟨2, ![M, N]⟩ : Shape).rank), n = 1 → (j ⟨n, h⟩).val = (j 1).val :=
    fun n h e => by subst e; rfl
  exact key _ _ (by simp [hlb, hln, hrn])

/-- The contraction sum of a plain matrix product at entry (p, q), re-indexed by the one contraction coordinate, is the
    sum over k < K of l(p, k) · r(k, q). -/
theorem sum_eq (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 p k) * r (ix2 k q) := by
  have hr : d.contr.rank = 1 := rank_contr_eq_one d hlc
  have hs : d.contr.size ⟨0, by omega⟩ = K := size_contr_eq d hlc
  refine (Equiv.sum_comp (contrEquiv1 d K hr hs).symm
    (fun k => l (d.lhsIdx (ix2 p q) k) * r (d.rhsIdx (ix2 p q) k))).symm.trans ?_
  refine Finset.sum_congr rfl fun i _ => ?_
  have hL : d.lhsIdx (ix2 p q) ((contrEquiv1 d K hr hs).symm i) = ix2 p i := by
    funext a
    match a with
    | ⟨0, _⟩ => exact Fin.ext (lhsIdx_zero_val d hln hlb _ _)
    | ⟨1, _⟩ => exact Fin.ext ((d.lhsIdx_val_of_single hlc _ _).trans (contrEquiv1_symm_val d K hr hs i))
  have hR : d.rhsIdx (ix2 p q) ((contrEquiv1 d K hr hs).symm i) = ix2 i q := by
    funext a
    match a with
    | ⟨0, _⟩ => exact Fin.ext ((d.rhsIdx_val_of_single hrc _ _).trans (contrEquiv1_symm_val d K hr hs i))
    | ⟨1, _⟩ => exact Fin.ext (rhsIdx_one_val d hln hrn hlb hrb _ _)
  show l _ * r _ = _
  rw [hL, hR]

/-- A plain matrix product accumulated into the zero splat, read at entry (p, q) at the ideal values, is the sum over
    k < K of l(p, k) · r(k, q). -/
theorem matmul_zero_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (l : FVec Ideal ⟨2, ![M, K]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 p k) * r (ix2 k q) :=
  (Ideal.matmul_constant_zero_apply d prec l r (ix2 p q)).trans (sum_eq d hlc hrc hln hrn hlb hrb l r p q)

/-- The host's plain matrix product, read at entry (p, q) at the ideal values, is the sum over k < K of
    l(p, k) · r(k, q), whatever the schedule. -/
theorem dotGeneral_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) :=
  (Ideal.dotGeneral_apply d prec sched l r (ix2 p q)).trans (sum_eq d hlc hrc hln hrn hlb hrb l r p q)

end Cert.Lib.PlainDot
-- ==== Proof.KPay1.lean ====
import proofs.«105238_j51762945852038_1_alg».proof.Proof.Gen.KernelIdeal.Frame
import proofs.«105238_j51762945852038_1_alg».proof.Proof.Spec
import proofs.«105238_j51762945852038_1_alg».proof.Proof.LibPlainDot
import Idealize.ShloMosaic.Lib.Pipeline.Value
import Idealize.ShloMosaic.Lib.ValueLayout

/-!
  What the first kernel's body leaves in its output block, on the extended reals: for a block of 1000 rows of x, the
  matching rows of the four relations' neighbour sums, and the whole W1 and b1, it is the first linear layer of those
  1000 rows.
-/

set_option maxRecDepth 16384

open scoped BigOperators

noncomputable section

namespace Cert.KernelIdeal.Pay1

open Cert.KernelIdeal Cert.KernelIdeal.Gen
open Idealize.ShloMosaic Idealize.ShloMosaic.TcCoe Idealize.ShloMosaic.ValueIdx

/-- One relation's payload at entry (u, i, o) of its [1, 1000, 128] block: the rows of x plus the relation's neighbour
    sums, times the relation's weight slab, plus the relation's bias row. -/
theorem pay1_apply (v0 : Vec Ideal S1000x128 .f32) (v1 : Vec Ideal S1x1000x128 .f32) (v5 : Vec Ideal S1x128x128 .f32)
    (v9 : Vec Ideal S1x128 .f32) (u : Fin 1) (i : Fin 1000) (o : Fin 128) :
    k0_pay1 (F := Ideal) v0 v1 v5 v9 (ix3 u i o)
      = (∑ f : Fin 128, (v0 (ix2 i f) + v1 (ix3 (0 : Fin 1) i f)) * v5 (ix3 (0 : Fin 1) f o)) + v9 (ix2 (0 : Fin 1) o) := by
  unfold k0_pay1
  refine (shapeCast_ab_1ab_apply _ _ u i o).trans ?_
  refine (addf_apply _ _ _).trans ?_
  refine congrArg₂ (· + ·) ?_ ?_
  · refine (Cert.Lib.PlainDot.matmul_zero_apply dot_S1000x128_S128x128_S1000x128_1_0_0_1_n_n rfl rfl rfl rfl rfl rfl none _ _ i o).trans ?_
    refine Finset.sum_congr rfl fun f _ => ?_
    refine congrArg₂ (· * ·) ?_ ?_
    · refine (truncf_apply (φ := .f32) (ψ := .bf16) _ bitsLt_bf16_f32 _).trans ?_
      refine (addf_apply _ _ _).trans ?_
      exact congrArg (v0 (ix2 i f) + ·) (shapeCast_1ab_ab_apply v1 _ i f)
    · refine (truncf_apply (φ := .f32) (ψ := .bf16) _ bitsLt_bf16_f32 _).trans ?_
      exact shapeCast_1ab_ab_apply v5 _ f o
  · refine (broadcastTo_1b_ab_apply _ _ i o).trans ?_
    refine (shapeCast_a_1a_apply _ _ (0 : Fin 1) o).trans ?_
    exact shapeCast_1a_a_apply v9 _ o

/-- The other three payloads are the same term under other names. -/
theorem pay4_apply (v0 : Vec Ideal S1000x128 .f32) (v1 : Vec Ideal S1x1000x128 .f32) (v5 : Vec Ideal S1x128x128 .f32)
    (v9 : Vec Ideal S1x128 .f32) (u : Fin 1) (i : Fin 1000) (o : Fin 128) :
    k0_pay4 (F := Ideal) v0 v1 v5 v9 (ix3 u i o)
      = (∑ f : Fin 128, (v0 (ix2 i f) + v1 (ix3 (0 : Fin 1) i f)) * v5 (ix3 (0 : Fin 1) f o)) + v9 (ix2 (0 : Fin 1) o) :=
  pay1_apply v0 v1 v5 v9 u i o

theorem pay5_apply (v0 : Vec Ideal S1000x128 .f32) (v1 : Vec Ideal S1x1000x128 .f32) (v5 : Vec Ideal S1x128x128 .f32)
    (v9 : Vec Ideal S1x128 .f32) (u : Fin 1) (i : Fin 1000) (o : Fin 128) :
    k0_pay5 (F := Ideal) v0 v1 v5 v9 (ix3 u i o)
      = (∑ f : Fin 128, (v0 (ix2 i f) + v1 (ix3 (0 : Fin 1) i f)) * v5 (ix3 (0 : Fin 1) f o)) + v9 (ix2 (0 : Fin 1) o) :=
  pay1_apply v0 v1 v5 v9 u i o

theorem pay32_apply (v0 : Vec Ideal S1000x128 .f32) (v1 : Vec Ideal S1x1000x128 .f32) (v5 : Vec Ideal S1x128x128 .f32)
    (v9 : Vec Ideal S1x128 .f32) (u : Fin 1) (i : Fin 1000) (o : Fin 128) :
    k0_pay3 (F := Ideal) (k0_pay2 (F := Ideal) v0 v1 v5 v9) (ix3 u i o)
      = (∑ f : Fin 128, (v0 (ix2 i f) + v1 (ix3 (0 : Fin 1) i f)) * v5 (ix3 (0 : Fin 1) f o)) + v9 (ix2 (0 : Fin 1) o) :=
  pay1_apply v0 v1 v5 v9 u i o

/-- Entry (u, i, o) of slab k of a [4, 1000, 128] array sits at (k, i, o). -/
theorem idx_slabZ (k : ℕ) (hk : k < 4) (inb : ∀ a, (![k, 0, 0] : Fin 3 → ℕ) a + S1x1000x128.size a ≤ S4x1000x128.size a)
    (u : Fin 1) (i : Fin 1000) (o : Fin 128) :
    (Rect.unit (s := S4x1000x128) ![k, 0, 0] S1x1000x128.size inb).idx (ix3 u i o) = ix3 (⟨k, hk⟩ : Fin 4) i o := by
  funext a
  match a with
  | ⟨0, _⟩ => exact Fin.ext (by show k + 1 * u.val = k; omega)
  | ⟨1, _⟩ => exact Fin.ext (by show 0 + 1 * i.val = i.val; omega)
  | ⟨2, _⟩ => exact Fin.ext (by show 0 + 1 * o.val = o.val; omega)

/-- Entry (u, f, o) of slab k of a [4, 128, 128] array sits at (k, f, o). -/
theorem idx_slabW (k : ℕ) (hk : k < 4) (inb : ∀ a, (![k, 0, 0] : Fin 3 → ℕ) a + S1x128x128.size a ≤ S4x128x128.size a)
    (u : Fin 1) (f : Fin 128) (o : Fin 128) :
    (Rect.unit (s := S4x128x128) ![k, 0, 0] S1x128x128.size inb).idx (ix3 u f o) = ix3 (⟨k, hk⟩ : Fin 4) f o := by
  funext a
  match a with
  | ⟨0, _⟩ => exact Fin.ext (by show k + 1 * u.val = k; omega)
  | ⟨1, _⟩ => exact Fin.ext (by show 0 + 1 * f.val = f.val; omega)
  | ⟨2, _⟩ => exact Fin.ext (by show 0 + 1 * o.val = o.val; omega)

/-- Entry (u, o) of row k of a [4, 128] array sits at (k, o). -/
theorem idx_rowB (k : ℕ) (hk : k < 4) (inb : ∀ a, (![k, 0] : Fin 2 → ℕ) a + S1x128.size a ≤ S4x128.size a)
    (u : Fin 1) (o : Fin 128) :
    (Rect.unit (s := S4x128) ![k, 0] S1x128.size inb).idx (ix2 u o) = ix2 (⟨k, hk⟩ : Fin 4) o := by
  funext a
  match a with
  | ⟨0, _⟩ => exact Fin.ext (by show k + 1 * u.val = k; omega)
  | ⟨1, _⟩ => exact Fin.ext (by show 0 + 1 * o.val = o.val; omega)

/-- A load of the whole block of x reads x. -/
theorem ld_x (x0 : Vec Ideal S1000x128 .f32) : View.ld x0 r0_0 = x0 :=
  View.ld_unit_zero (by funext a; match a with | ⟨0, _⟩ => rfl | ⟨1, _⟩ => rfl) _ x0

/-- A piece of the output: relation k's payload, of the loads of slab k of the neighbour sums, slab k of W1 and row k
    of b1, is slab k of the first linear layer. -/
theorem piece_apply (x0 : Vec Ideal S1000x128 .f32) (x1 : Vec Ideal S4x1000x128 .f32) (x2 : Vec Ideal S4x128x128 .f32)
    (x3 : Vec Ideal S4x128 .f32)
    (pay : Vec Ideal S1000x128 .f32 → Vec Ideal S1x1000x128 .f32 → Vec Ideal S1x128x128 .f32 → Vec Ideal S1x128 .f32
      → FVec Ideal S1x1000x128 .f32)
    (hpay : ∀ v0 v1 v5 v9 (u : Fin 1) (i : Fin 1000) (o : Fin 128), pay v0 v1 v5 v9 (ix3 u i o)
      = (∑ f : Fin 128, (v0 (ix2 i f) + v1 (ix3 (0 : Fin 1) i f)) * v5 (ix3 (0 : Fin 1) f o)) + v9 (ix2 (0 : Fin 1) o))
    (k : ℕ) (hk : k < 4)
    (inbZ : ∀ a, (![k, 0, 0] : Fin 3 → ℕ) a + S1x1000x128.size a ≤ S4x1000x128.size a)
    (inbW : ∀ a, (![k, 0, 0] : Fin 3 → ℕ) a + S1x128x128.size a ≤ S4x128x128.size a)
    (inbB : ∀ a, (![k, 0] : Fin 2 → ℕ) a + S1x128.size a ≤ S4x128.size a)
    (x : (Rect.unit (s := S4x1000x128) ![k, 0, 0] S1x1000x128.size inbZ).shape.Idx) :
    pay (View.ld x0 r0_0) (View.ld x1 (Rect.unit (s := S4x1000x128) ![k, 0, 0] S1x1000x128.size inbZ))
        (View.ld x2 (Rect.unit (s := S4x128x128) ![k, 0, 0] S1x128x128.size inbW))
        (View.ld x3 (Rect.unit (s := S4x128) ![k, 0] S1x128.size inbB)) x
      = Cert.Spec.Z (Nn := 1000) x0 x1 x2 x3 ((Rect.unit (s := S4x1000x128) ![k, 0, 0] S1x1000x128.size inbZ).emb x) := by
  obtain ⟨u, i, o, rfl⟩ : ∃ (u : Fin 1) (i : Fin 1000) (o : Fin 128), x = ix3 u i o := ⟨x 0, x 1, x 2, eq_ix3 x⟩
  refine (hpay _ _ _ _ u i o).trans ?_
  refine Eq.trans ?_ (congrArg (Cert.Spec.Z (Nn := 1000) x0 x1 x2 x3) (idx_slabZ k hk inbZ u i o)).symm
  show _ = Cert.Spec.lin1 x0 x1 x2 x3 (⟨k, hk⟩ : Fin 4) i o
  unfold Cert.Spec.lin1
  refine congrArg₂ (· + ·) (Finset.sum_congr rfl fun f _ => congrArg₂ (· * ·) (congrArg₂ (· + ·) ?_ ?_) ?_) ?_
  · exact congrFun (ld_x x0) _
  · exact congrArg x1 (idx_slabZ k hk inbZ 0 i f)
  · exact congrArg x2 (idx_slabW k hk inbW 0 f o)
  · exact congrArg x3 (idx_rowB k hk inbB 0 o)

/-- The body's stores, read back as one array [4, 1000, 128], are the first linear layer of the block. -/
theorem out0_4_eq (x0 : Vec Ideal S1000x128 .f32) (x1 : Vec Ideal S4x1000x128 .f32) (x2 : Vec Ideal S4x128x128 .f32)
    (x3 : Vec Ideal S4x128 .f32) :
    out0_4 (F := Ideal) x0 x1 x2 x3 = Cert.Spec.Z (Nn := 1000) x0 x1 x2 x3 := by
  funext y
  unfold out0_4
  refine View.canon_apply_of_pieces (Val := Elt Ideal) (S := S4x1000x128) (e := .f32) (Cert.Spec.Z (Nn := 1000) x0 x1 x2 x3) _ ?_ y (cover0_4 _ _ _ _ y)
  intro p hp
  simp only [List.mem_cons, List.not_mem_nil, or_false] at hp
  rcases hp with rfl | rfl | rfl | rfl
  · exact fun x => piece_apply x0 x1 x2 x3 k0_pay5 pay5_apply 3 (by omega) _ _ _ x
  · exact fun x => piece_apply x0 x1 x2 x3 k0_pay4 pay4_apply 2 (by omega) _ _ _ x
  · exact fun x => piece_apply x0 x1 x2 x3 (fun a b c d => k0_pay3 (k0_pay2 a b c d)) pay32_apply 1 (by omega) _ _ _ x
  · exact fun x => piece_apply x0 x1 x2 x3 k0_pay1 pay1_apply 0 (by omega) _ _ _ x

end Cert.KernelIdeal.Pay1

end
-- ==== Proof.KStage1.lean ====
import proofs.«105238_j51762945852038_1_alg».proof.Proof.Gen.KernelIdeal.Frame
import proofs.«105238_j51762945852038_1_alg».proof.Proof.Spec
import proofs.«105238_j51762945852038_1_alg».proof.Proof.KPay1
import Idealize.ShloMosaic.Lib.Pipeline.Value
import Idealize.ShloMosaic.Lib.ValueLayout

set_option maxRecDepth 16384

open scoped BigOperators

noncomputable section

namespace Cert.KernelIdeal.Stage1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## Rows of a block as rows of the whole arrays -/

/-- Row n of the block of grid point t is row 1000·t + n of the 50000 nodes. -/
def row (t : Fin cfg0.N) (n : Fin 1000) : Fin 50000 :=
  ⟨t.val * 1000 + n.val, by have ht : t.val < 50 := lt_of_lt_of_eq t.isLt N_0; have hn := n.isLt; omega⟩

theorem row_val (t : Fin cfg0.N) (n : Fin 1000) : (row t n).val = t.val * 1000 + n.val := rfl

/-- The first linear layer only looks at its own node's row: if a block's features and neighbour sums are the rows
    ρ n of the whole arrays, and the weights and biases are the same, the block's first layer at row n is the whole
    arrays' first layer at row ρ n. -/
theorem Z_rows (X : (Cert.Spec.SX 50000).Idx → EReal) (A : (Cert.Spec.SZ 50000).Idx → EReal)
    (W : Cert.Spec.SW.Idx → EReal) (b : Cert.Spec.SB.Idx → EReal)
    (x0 : (Cert.Spec.SX 1000).Idx → EReal) (x1 : (Cert.Spec.SZ 1000).Idx → EReal)
    (x2 : Cert.Spec.SW.Idx → EReal) (x3 : Cert.Spec.SB.Idx → EReal) (ρ : Fin 1000 → Fin 50000)
    (h0 : ∀ (n : Fin 1000) (f : Fin 128), x0 (ix2 n f) = X (ix2 (ρ n) f))
    (h1 : ∀ (r : Fin 4) (n : Fin 1000) (f : Fin 128), x1 (ix3 r n f) = A (ix3 r (ρ n) f))
    (h2 : ∀ (r : Fin 4) (f o : Fin 128), x2 (ix3 r f o) = W (ix3 r f o))
    (h3 : ∀ (r : Fin 4) (o : Fin 128), x3 (ix2 r o) = b (ix2 r o))
    (r : Fin 4) (n : Fin 1000) (o : Fin 128) :
    Cert.Spec.Z (Nn := 1000) x0 x1 x2 x3 (ix3 r n o) = Cert.Spec.Z (Nn := 50000) X A W b (ix3 r (ρ n) o) := by
  show Cert.Spec.lin1 x0 x1 x2 x3 r n o = Cert.Spec.lin1 X A W b r (ρ n) o
  unfold Cert.Spec.lin1
  rw [h3]
  exact congrArg (· + b (ix2 r o)) (Finset.sum_congr rfl fun f _ => by rw [h0, h1, h2])

/-! ## The printed index maps -/

/-- Over the 50 grid points: the feature window and the two per-relation row windows sit at block t of the node axis and
    at block 0 of every other axis; the weight and bias windows never move. -/
theorem index_maps : ∀ t : Fin cfg0.N,
    win0_0.index t (0 : Fin 2) = t.val ∧ win0_0.index t (1 : Fin 2) = 0
    ∧ win0_1.index t (0 : Fin 3) = 0 ∧ win0_1.index t (1 : Fin 3) = t.val ∧ win0_1.index t (2 : Fin 3) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 3) = 0 ∧ win0_4.index t (1 : Fin 3) = t.val ∧ win0_4.index t (2 : Fin 3) = 0 :=
  (by decide +kernel : ∀ t : Fin grid0.N, _)

/-! ## Each window's block, read at explicit coordinates -/

/-- The feature block at point t holds rows 1000·t … 1000·t + 999 of x. -/
theorem x_block (c : Dev nD) (t : Fin cfg0.N) (n : Fin 1000) (f : Fin 128) :
    iblk0 (F := Ideal) V c 0 t (ix2 n f) = V c main_arg0 (ix2 (row t n) f) := by
  obtain ⟨e0, e1, -⟩ := index_maps t
  show V c main_arg0 (((cfg0.win 0).blk t).view.emb (ix2 n f)) = V c main_arg0 (ix2 (row t n) f)
  refine congrArg _ (funext fun a => Fin.ext ?_)
  match a with
  | ⟨0, _⟩ => show win0_0.index t (0 : Fin 2) * 1000 + 1 * n.val = t.val * 1000 + n.val; omega
  | ⟨1, _⟩ => show win0_0.index t (1 : Fin 2) * 128 + 1 * f.val = f.val; omega

/-- The neighbour-sum block at point t holds, for every relation, the same rows of the neighbour sums. -/
theorem a_block (c : Dev nD) (t : Fin cfg0.N) (r : Fin 4) (n : Fin 1000) (f : Fin 128) :
    iblk0 (F := Ideal) V c 1 t (ix3 r n f) = V c main_v17 (ix3 r (row t n) f) := by
  obtain ⟨-, -, e0, e1, e2, -⟩ := index_maps t
  show V c main_v17 (((cfg0.win 1).blk t).view.emb (ix3 r n f)) = V c main_v17 (ix3 r (row t n) f)
  refine congrArg _ (funext fun a => Fin.ext ?_)
  match a with
  | ⟨0, _⟩ => show win0_1.index t (0 : Fin 3) * 4 + 1 * r.val = r.val; omega
  | ⟨1, _⟩ => show win0_1.index t (1 : Fin 3) * 1000 + 1 * n.val = t.val * 1000 + n.val; omega
  | ⟨2, _⟩ => show win0_1.index t (2 : Fin 3) * 128 + 1 * f.val = f.val; omega

/-- The weight block is the whole of W1 at every point. -/
theorem w_block (c : Dev nD) (t : Fin cfg0.N) (r : Fin 4) (f o : Fin 128) :
    iblk0 (F := Ideal) V c 2 t (ix3 r f o) = V c main_arg5 (ix3 r f o) := by
  obtain ⟨-, -, -, -, -, e0, e1, e2, -⟩ := index_maps t
  show V c main_arg5 (((cfg0.win 2).blk t).view.emb (ix3 r f o)) = V c main_arg5 (ix3 r f o)
  refine congrArg _ (funext fun a => Fin.ext ?_)
  match a with
  | ⟨0, _⟩ => show win0_2.index t (0 : Fin 3) * 4 + 1 * r.val = r.val; omega
  | ⟨1, _⟩ => show win0_2.index t (1 : Fin 3) * 128 + 1 * f.val = f.val; omega
  | ⟨2, _⟩ => show win0_2.index t (2 : Fin 3) * 128 + 1 * o.val = o.val; omega

/-- The bias block is the whole of b1 at every point. -/
theorem b_block (c : Dev nD) (t : Fin cfg0.N) (r : Fin 4) (o : Fin 128) :
    iblk0 (F := Ideal) V c 3 t (ix2 r o) = V c main_arg6 (ix2 r o) := by
  obtain ⟨-, -, -, -, -, -, -, -, e0, e1, -⟩ := index_maps t
  show V c main_arg6 (((cfg0.win 3).blk t).view.emb (ix2 r o)) = V c main_arg6 (ix2 r o)
  refine congrArg _ (funext fun a => Fin.ext ?_)
  match a with
  | ⟨0, _⟩ => show win0_3.index t (0 : Fin 2) * 4 + 1 * r.val = r.val; omega
  | ⟨1, _⟩ => show win0_3.index t (1 : Fin 2) * 128 + 1 * o.val = o.val; omega

/-- An entry of the output block at point t sits in the output array at the same relation and channel, row 1000·t + n. -/
theorem out_emb (t : Fin cfg0.N) (r : Fin 4) (n : Fin 1000) (o : Fin 128) :
    ((cfg0.win 4).blk t).view.emb (ix3 r n o) = ix3 r (row t n) o := by
  obtain ⟨-, -, -, -, -, -, -, -, -, -, e0, e1, e2⟩ := index_maps t
  refine funext fun a => Fin.ext ?_
  match a with
  | ⟨0, _⟩ => show win0_4.index t (0 : Fin 3) * 4 + 1 * r.val = r.val; omega
  | ⟨1, _⟩ => show win0_4.index t (1 : Fin 3) * 1000 + 1 * n.val = t.val * 1000 + n.val; omega
  | ⟨2, _⟩ => show win0_4.index t (2 : Fin 3) * 128 + 1 * o.val = o.val; omega

/-! ## What a point writes back, and the cover -/

/-- Point t writes back block t of the first linear layer of the whole arrays. -/
theorem written_back (c : Dev nD) (t : Fin cfg0.N) :
    (dat0 (F := Ideal) V c).flushed 4 t
      = ((cfg0.win 4).blk t).view.read (Elt Ideal)
          (Cert.Spec.Z (Nn := 50000) (V c main_arg0) (V c main_v17) (V c main_arg5) (V c main_arg6)) := by
  show (cfg0.win 4).cut (grid0.coords t) ((dat0 V c).after 4 t) = _
  rw [after0_4, Cert.KernelIdeal.Pay1.out0_4_eq]
  funext j
  obtain ⟨r, n, o, rfl⟩ : ∃ (r : Fin 4) (n : Fin 1000) (o : Fin 128), j = ix3 r n o := ⟨j 0, j 1, j 2, eq_ix3 j⟩
  show Cert.Spec.Z (Nn := 1000) (iblk0 V c 0 t) (iblk0 V c 1 t) (iblk0 V c 2 t) (iblk0 V c 3 t) (ix3 r n o)
    = Cert.Spec.Z (Nn := 50000) (V c main_arg0) (V c main_v17) (V c main_arg5) (V c main_arg6)
        (((cfg0.win 4).blk t).view.emb (ix3 r n o))
  rw [out_emb]
  exact Z_rows (V c main_arg0) (V c main_v17) (V c main_arg5) (V c main_arg6)
    (iblk0 V c 0 t) (iblk0 V c 1 t) (iblk0 V c 2 t) (iblk0 V c 3 t) (row t)
    (x_block V c t) (a_block V c t) (w_block V c t) (b_block V c t) r n o

/-- An index of the output array is in point t's block iff each coordinate is in the block's range on its axis. -/
theorem in_block (t : Fin cfg0.N) (i : S4x50000x128.Idx) :
    i ∈ ((cfg0.win 4).blk t).view.set
      ↔ ∀ a : Fin 3, win0_4.index t a * S4x1000x128.size a ≤ (i a).val
          ∧ (i a).val < win0_4.index t a * S4x1000x128.size a + S4x1000x128.size a := by
  show i ∈ ((View.whole main_v18).slice (win0_4.rect t)).set ↔ _
  rw [View.set_slice_whole, Rect.mem_set_unit]
  exact Iff.rfl

/-- Every index of the output array is in the block of the point its row falls in: row n is in block n / 1000. -/
theorem covered (i : S4x50000x128.Idx) :
    ∃ t : Fin cfg0.N, (cfg0.win 4).flush t = true ∧ i ∈ ((cfg0.win 4).blk t).view.set := by
  have h0 : (i 0).val < 4 := (i 0).isLt
  have h1 : (i 1).val < 50000 := (i 1).isLt
  have h2 : (i 2).val < 128 := (i 2).isLt
  obtain ⟨t, ht⟩ : ∃ t : Fin cfg0.N, t.val = (i 1).val / 1000 :=
    ⟨⟨(i 1).val / 1000, lt_of_lt_of_eq (show (i 1).val / 1000 < 50 by omega) N_0.symm⟩, rfl⟩
  obtain ⟨-, -, -, -, -, -, -, -, -, -, e0, e1, e2⟩ := index_maps t
  refine ⟨t, flush0_4 t, ?_⟩
  rw [in_block]
  intro a
  match a with
  | ⟨0, _⟩ =>
    show win0_4.index t (0 : Fin 3) * 4 ≤ (i 0).val ∧ (i 0).val < win0_4.index t (0 : Fin 3) * 4 + 4
    omega
  | ⟨1, _⟩ =>
    show win0_4.index t (1 : Fin 3) * 1000 ≤ (i 1).val ∧ (i 1).val < win0_4.index t (1 : Fin 3) * 1000 + 1000
    omega
  | ⟨2, _⟩ =>
    show win0_4.index t (2 : Fin 3) * 128 ≤ (i 2).val ∧ (i 2).val < win0_4.index t (2 : Fin 3) * 128 + 128
    omega

/-- After the first region its output array holds the first linear layer of the arrays the region found. -/
theorem final (c : Dev nD) :
    (dat0 (F := Ideal) V c).arrAt 4 cfg0.N
      = Cert.Spec.Z (Nn := 50000) (V c main_arg0) (V c main_v17) (V c main_arg5) (V c main_arg6) := by
  exact (dat0 (F := Ideal) V c).arrAt_eq_of_cover 4 _ (fun t _ => written_back V c t) covered

end Cert.KernelIdeal.Stage1

end
-- ==== Proof.KPay2.lean ====
import proofs.«105238_j51762945852038_1_alg».proof.Proof.Gen.KernelIdeal.Frame
import proofs.«105238_j51762945852038_1_alg».proof.Proof.Spec
import proofs.«105238_j51762945852038_1_alg».proof.Proof.LibPlainDot
import Idealize.ShloMosaic.Lib.Pipeline.Value
import Idealize.ShloMosaic.Lib.ValueLayout

/-!
  What the second kernel's body leaves in its output block, on the extended reals: for a block of 1000 rows of the
  first layer and of x, and the whole statistics, scales, shifts, weights and biases, it is the result formula of those
  1000 rows.
-/

set_option maxRecDepth 16384

open scoped BigOperators

noncomputable section

namespace Cert.KernelIdeal.Pay2

open Cert.KernelIdeal Cert.KernelIdeal.Gen
open Idealize.ShloMosaic Idealize.ShloMosaic.TcCoe Idealize.ShloMosaic.ValueIdx

/-- A [1,128] row flattened to [128], put back to [1,128] and repeated down 1000 rows reads, at (i, o), the row at (0, o). -/
theorem row_apply {α : Type} (m : S1x128.Idx → α) (i : Fin 1000) (o : Fin 128) :
    broadcastTo S1000x128 (shapeCast S1x128 (shapeCast S128 m shapeCasts_S1x128_S128) shapeCasts_S128_S1x128)
      broadcasts_S1x128_S1000x128 (ix2 i o) = m (ix2 0 o) := by
  rw [shapeCast_shapeCast]
  exact broadcastTo_apply m broadcasts_S1x128_S1000x128 (ix2 i o) (ix2 0 o)
    (fun a => match a with | ⟨0, _⟩ => rfl | ⟨1, _⟩ => rfl)

/-- A [1,128] row repeated down 1000 rows reads, at (i, o), the row at (0, o). -/
theorem rowB_apply {α : Type} (m : S1x128.Idx → α) (i : Fin 1000) (o : Fin 128) :
    broadcastTo S1000x128 m broadcasts_S1x128_S1000x128 (ix2 i o) = m (ix2 0 o) :=
  broadcastTo_apply m broadcasts_S1x128_S1000x128 (ix2 i o) (ix2 0 o)
    (fun a => match a with | ⟨0, _⟩ => rfl | ⟨1, _⟩ => rfl)

/-- A [1,128,128] slab seen as [128,128] reads, at (o, p), the slab at (0, o, p). -/
theorem slabW_apply {α : Type} (w : S1x128x128.Idx → α) (o p : Fin 128) :
    shapeCast S128x128 w shapeCasts_S1x128x128_S128x128 (ix2 o p) = w (ix3 0 o p) := by
  refine (shapeCast_dropUnit_apply ![128, 128] w shapeCasts_S1x128x128_S128x128 (ix2 o p)).trans ?_
  refine congrArg w ?_
  funext a; match a with | ⟨0, _⟩ => rfl | ⟨1, _⟩ => rfl | ⟨2, _⟩ => rfl

/-- A [1,1000,128] slab seen as [1000,128] reads, at (i, o), the slab at (0, i, o). -/
theorem slabZ_apply {α : Type} (z : S1x1000x128.Idx → α) (i : Fin 1000) (o : Fin 128) :
    shapeCast S1000x128 z shapeCasts_S1x1000x128_S1000x128 (ix2 i o) = z (ix3 0 i o) := by
  refine (shapeCast_dropUnit_apply ![1000, 128] z shapeCasts_S1x1000x128_S1000x128 (ix2 i o)).trans ?_
  refine congrArg z ?_
  funext a; match a with | ⟨0, _⟩ => rfl | ⟨1, _⟩ => rfl | ⟨2, _⟩ => rfl

/-- One relation's second layer as the body computes it, from the [1000,128] view of the relation's slab of the first
    layer and the relation's rows of the statistics, scale, shift, weight and bias. -/
def branch (z : FVec Ideal S1000x128 .f32) (m v g b : Vec Ideal S1x128 .f32) (w : Vec Ideal S1x128x128 .f32)
    (c : Vec Ideal S1x128 .f32) : FVec Ideal S1000x128 .f32 :=
  addf
    (matmul dot_S1000x128_S128x128_S1000x128_1_0_0_1_n_n none
      (truncf .bf16
        (maximumf
          (addf
            (mulf
              (mulf
                (subf z (broadcastTo S1000x128 (shapeCast S1x128 (shapeCast S128 m shapeCasts_S1x128_S128) shapeCasts_S128_S1x128) broadcasts_S1x128_S1000x128))
                (broadcastTo S1000x128
                  (rsqrt (addf (shapeCast S1x128 (shapeCast S128 v shapeCasts_S1x128_S128) shapeCasts_S128_S1x128)
                    (broadcast S1x128 (Scalar.ofBits .f32 0x3727C5AC#32))))
                  broadcasts_S1x128_S1000x128))
              (broadcastTo S1000x128 (shapeCast S1x128 (shapeCast S128 g shapeCasts_S1x128_S128) shapeCasts_S128_S1x128) broadcasts_S1x128_S1000x128))
            (broadcastTo S1000x128 (shapeCast S1x128 (shapeCast S128 b shapeCasts_S1x128_S128) shapeCasts_S128_S1x128) broadcasts_S1x128_S1000x128))
          (broadcast S1000x128 (Scalar.ofBits .f32 0x00000000#32)))
        bitsLt_bf16_f32)
      (truncf .bf16 (shapeCast S128x128 w shapeCasts_S1x128x128_S128x128) bitsLt_bf16_f32)
      (constant S1000x128 .f32 0x00000000#32))
    (broadcastTo S1000x128 (shapeCast S1x128 (shapeCast S128 c shapeCasts_S1x128_S128) shapeCasts_S128_S1x128) broadcasts_S1x128_S1000x128)

/-- Relation 0's step: its branch added onto the zero splat. -/
theorem pay2_eq (v1 : Vec Ideal S1x1000x128 .f32) (v3 v8 v16 v21 : Vec Ideal S1x128 .f32) (v29 : Vec Ideal S1x128x128 .f32) (v33 : Vec Ideal S1x128 .f32) :
    k1_pay2 (F := Ideal) v1 v3 v8 v16 v21 v29 v33
      = addf (broadcast S1000x128 (Scalar.ofBits .f32 0x00000000#32))
          (branch (shapeCast S1000x128 v1 shapeCasts_S1x1000x128_S1000x128) v3 v8 v16 v21 v29 v33) := rfl

/-- Relation 1's step: its branch added onto the running sum. -/
theorem pay3_eq (a : FVec Ideal S1000x128 .f32) (v1 : Vec Ideal S1x1000x128 .f32) (v3 v8 v16 v21 : Vec Ideal S1x128 .f32) (v29 : Vec Ideal S1x128x128 .f32) (v33 : Vec Ideal S1x128 .f32) :
    k1_pay3 (F := Ideal) a v1 v3 v8 v16 v21 v29 v33
      = addf a (branch (shapeCast S1000x128 v1 shapeCasts_S1x1000x128_S1000x128) v3 v8 v16 v21 v29 v33) := rfl

/-- Relation 2's step: its branch added onto the running sum. -/
theorem pay4_eq (a : FVec Ideal S1000x128 .f32) (v1 : Vec Ideal S1x1000x128 .f32) (v3 v8 v16 v21 : Vec Ideal S1x128 .f32) (v29 : Vec Ideal S1x128x128 .f32) (v33 : Vec Ideal S1x128 .f32) :
    k1_pay4 (F := Ideal) a v1 v3 v8 v16 v21 v29 v33
      = addf a (branch (shapeCast S1000x128 v1 shapeCasts_S1x1000x128_S1000x128) v3 v8 v16 v21 v29 v33) := rfl

/-- Relation 3's step, over the [1000,128] view of its slab: its branch added onto the running sum. -/
theorem pay6_eq (a z : FVec Ideal S1000x128 .f32) (v3 v8 v16 v21 : Vec Ideal S1x128 .f32) (v29 : Vec Ideal S1x128x128 .f32) (v33 : Vec Ideal S1x128 .f32) :
    k1_pay6 (F := Ideal) a z v3 v8 v16 v21 v29 v33 = addf a (branch z v3 v8 v16 v21 v29 v33) := rfl

/-- The branch at row i, output channel p: the activation of the row's 128 channels against the weight's column p, plus
    the bias. -/
theorem branch_apply (z : FVec Ideal S1000x128 .f32) (m v g b : Vec Ideal S1x128 .f32) (w : Vec Ideal S1x128x128 .f32)
    (c : Vec Ideal S1x128 .f32) (i : Fin 1000) (p : Fin 128) :
    branch z m v g b w c (ix2 i p)
      = (∑ o : Fin 128,
          max (((z (ix2 i o) - m (ix2 0 o)) * Ideal.rsqrt (v (ix2 0 o) + Cert.Spec.epsW)) * g (ix2 0 o) + b (ix2 0 o)) Cert.Spec.zeroW
            * w (ix3 0 o p)) + c (ix2 0 p) := by
  unfold branch
  refine congrArg₂ (· + ·) ?_ (row_apply c i p)
  refine (Cert.Lib.PlainDot.matmul_zero_apply dot_S1000x128_S128x128_S1000x128_1_0_0_1_n_n rfl rfl rfl rfl rfl rfl none _ _ i p).trans ?_
  refine Finset.sum_congr rfl fun o _ => ?_
  refine congrArg₂ (· * ·) ?_ (slabW_apply w o p)
  refine congrArg₂ max ?_ rfl
  refine congrArg₂ (· + ·) ?_ (row_apply b i o)
  refine congrArg₂ (· * ·) ?_ (row_apply g i o)
  refine congrArg₂ (· * ·) ?_ ?_
  · exact congrArg₂ (· - ·) rfl (row_apply m i o)
  · refine (rowB_apply _ i o).trans ?_
    show Ideal.rsqrt (_ + _) = _
    rw [shapeCast_shapeCast]
    rfl

/-- A load of relation r's [1,128] row of a [4,128] array reads, at (0, o), the array at (r, o). -/
theorem ld_row (x : Vec Ideal S4x128 .f32) (off : Fin 2 → Nat) (inb : ∀ a, off a + S1x128.size a ≤ S4x128.size a)
    (r : Fin 4) (h0 : off 0 = r.val) (h1 : off 1 = 0) (o : Fin 128) :
    View.ld x (Rect.unit (s := S4x128) off S1x128.size inb) (ix2 0 o) = x (ix2 r o) := by
  refine congrArg x ?_
  funext a; refine Fin.ext ?_
  match a with
  | ⟨0, _⟩ => show off 0 + 1 * (0 : Nat) = r.val; omega
  | ⟨1, _⟩ => show off 1 + 1 * o.val = o.val; omega

/-- A load of relation r's [1,1000,128] slab of a [4,1000,128] array reads, at (0, i, o), the array at (r, i, o). -/
theorem ld_slabZ (x : Vec Ideal S4x1000x128 .f32) (off : Fin 3 → Nat) (inb : ∀ a, off a + S1x1000x128.size a ≤ S4x1000x128.size a)
    (r : Fin 4) (h0 : off 0 = r.val) (h1 : off 1 = 0) (h2 : off 2 = 0) (i : Fin 1000) (o : Fin 128) :
    View.ld x (Rect.unit (s := S4x1000x128) off S1x1000x128.size inb) (ix3 0 i o) = x (ix3 r i o) := by
  refine congrArg x ?_
  funext a; refine Fin.ext ?_
  match a with
  | ⟨0, _⟩ => show off 0 + 1 * (0 : Nat) = r.val; omega
  | ⟨1, _⟩ => show off 1 + 1 * i.val = i.val; omega
  | ⟨2, _⟩ => show off 2 + 1 * o.val = o.val; omega

/-- A load of relation r's [1,128,128] slab of a [4,128,128] array reads, at (0, o, p), the array at (r, o, p). -/
theorem ld_slabW (x : Vec Ideal S4x128x128 .f32) (off : Fin 3 → Nat) (inb : ∀ a, off a + S1x128x128.size a ≤ S4x128x128.size a)
    (r : Fin 4) (h0 : off 0 = r.val) (h1 : off 1 = 0) (h2 : off 2 = 0) (o p : Fin 128) :
    View.ld x (Rect.unit (s := S4x128x128) off S1x128x128.size inb) (ix3 0 o p) = x (ix3 r o p) := by
  refine congrArg x ?_
  funext a; refine Fin.ext ?_
  match a with
  | ⟨0, _⟩ => show off 0 + 1 * (0 : Nat) = r.val; omega
  | ⟨1, _⟩ => show off 1 + 1 * o.val = o.val; omega
  | ⟨2, _⟩ => show off 2 + 1 * p.val = p.val; omega

/-- The branch over relation r's loads is the relation's second linear layer of the block. -/
theorem branch_lin2 (x0 : Vec Ideal S4x1000x128 .f32) (x1 x2 x3 x4 : Vec Ideal S4x128 .f32) (x5 : Vec Ideal S4x128x128 .f32)
    (x6 : Vec Ideal S4x128 .f32) (r : Fin 4)
    (offZ : Fin 3 → Nat) (inbZ : ∀ a, offZ a + S1x1000x128.size a ≤ S4x1000x128.size a)
    (offR : Fin 2 → Nat) (inbR : ∀ a, offR a + S1x128.size a ≤ S4x128.size a)
    (offW : Fin 3 → Nat) (inbW : ∀ a, offW a + S1x128x128.size a ≤ S4x128x128.size a)
    (hZ0 : offZ 0 = r.val) (hZ1 : offZ 1 = 0) (hZ2 : offZ 2 = 0) (hR0 : offR 0 = r.val) (hR1 : offR 1 = 0)
    (hW0 : offW 0 = r.val) (hW1 : offW 1 = 0) (hW2 : offW 2 = 0) (i : Fin 1000) (p : Fin 128) :
    branch (shapeCast S1000x128 (View.ld x0 (Rect.unit (s := S4x1000x128) offZ S1x1000x128.size inbZ)) shapeCasts_S1x1000x128_S1000x128)
        (View.ld x1 (Rect.unit (s := S4x128) offR S1x128.size inbR)) (View.ld x2 (Rect.unit (s := S4x128) offR S1x128.size inbR))
        (View.ld x3 (Rect.unit (s := S4x128) offR S1x128.size inbR)) (View.ld x4 (Rect.unit (s := S4x128) offR S1x128.size inbR))
        (View.ld x5 (Rect.unit (s := S4x128x128) offW S1x128x128.size inbW)) (View.ld x6 (Rect.unit (s := S4x128) offR S1x128.size inbR))
        (ix2 i p)
      = Cert.Spec.lin2 (Nn := 1000) x0 x1 x2 x3 x4 x5 x6 r i p := by
  refine (branch_apply _ _ _ _ _ _ _ i p).trans ?_
  unfold Cert.Spec.lin2 Cert.Spec.act
  refine congrArg₂ (· + ·) (Finset.sum_congr rfl fun o _ => ?_) (ld_row x6 offR inbR r hR0 hR1 p)
  refine congrArg₂ (· * ·) ?_ (ld_slabW x5 offW inbW r hW0 hW1 hW2 o p)
  refine congrArg₂ max ?_ rfl
  refine congrArg₂ (· + ·) ?_ (ld_row x4 offR inbR r hR0 hR1 o)
  refine congrArg₂ (· * ·) ?_ (ld_row x3 offR inbR r hR0 hR1 o)
  refine congrArg₂ (· * ·) ?_ ?_
  · refine congrArg₂ (· - ·) ?_ (ld_row x1 offR inbR r hR0 hR1 o)
    exact (slabZ_apply _ i o).trans (ld_slabZ x0 offZ inbZ r hZ0 hZ1 hZ2 i o)
  · exact congrArg (fun t => Ideal.rsqrt (t + Cert.Spec.epsW)) (ld_row x2 offR inbR r hR0 hR1 o)

/-- The self-loop's product and bias added onto an accumulated value, at row i, channel p. -/
theorem pay1_apply (acc : FVec Ideal S1000x128 .f32) (x7 : Vec Ideal S1000x128 .f32) (x8 : Vec Ideal S128x128 .f32)
    (x9 : Vec Ideal S128 .f32) (i : Fin 1000) (p : Fin 128) :
    k1_pay1 (F := Ideal) acc (k1_pay7 x7) (k1_pay8 x8) (constant S1000x128 .f32 0x00000000#32) x9 (ix2 i p)
      = ((∑ k : Fin 128, x7 (ix2 i k) * x8 (ix2 k p)) + x9 (ix1 p)) + acc (ix2 i p) := by
  unfold k1_pay1 k1_pay7 k1_pay8
  refine congrArg₂ (· + ·) (congrArg₂ (· + ·) ?_ ?_) rfl
  · exact Cert.Lib.PlainDot.matmul_zero_apply dot_S1000x128_S128x128_S1000x128_1_0_0_1_n_n rfl rfl rfl rfl rfl rfl none _ _ i p
  · refine (rowB_apply _ i p).trans ?_
    refine (shapeCast_addUnit_apply ![128] x9 shapeCasts_S128_S1x128 (ix2 0 p)).trans ?_
    refine congrArg x9 ?_
    funext a; match a with | ⟨0, _⟩ => rfl

/-- The four relations' branches added in order onto the zero splat, at row i, channel p. -/
theorem acc_apply (x0 : Vec Ideal S4x1000x128 .f32) (x1 x2 x3 x4 : Vec Ideal S4x128 .f32) (x5 : Vec Ideal S4x128x128 .f32)
    (x6 : Vec Ideal S4x128 .f32) (i : Fin 1000) (p : Fin 128) :
    k1_pay6 (F := Ideal) (k1_pay4 (k1_pay3 (k1_pay2 (View.ld x0 r1_0) (View.ld x1 r1_1) (View.ld x2 r1_1) (View.ld x3 r1_1) (View.ld x4 r1_1) (View.ld x5 r1_2) (View.ld x6 r1_1)) (View.ld x0 r1_3) (View.ld x1 r1_4) (View.ld x2 r1_4) (View.ld x3 r1_4) (View.ld x4 r1_4) (View.ld x5 r1_5) (View.ld x6 r1_4)) (View.ld x0 r1_6) (View.ld x1 r1_7) (View.ld x2 r1_7) (View.ld x3 r1_7) (View.ld x4 r1_7) (View.ld x5 r1_8) (View.ld x6 r1_7)) (k1_pay5 (View.ld x0 r1_9)) (View.ld x1 r1_10) (View.ld x2 r1_10) (View.ld x3 r1_10) (View.ld x4 r1_10) (View.ld x5 r1_11) (View.ld x6 r1_10) (ix2 i p)
      = (((Cert.Spec.zeroW + Cert.Spec.lin2 (Nn := 1000) x0 x1 x2 x3 x4 x5 x6 0 i p)
          + Cert.Spec.lin2 (Nn := 1000) x0 x1 x2 x3 x4 x5 x6 1 i p)
          + Cert.Spec.lin2 (Nn := 1000) x0 x1 x2 x3 x4 x5 x6 2 i p)
          + Cert.Spec.lin2 (Nn := 1000) x0 x1 x2 x3 x4 x5 x6 3 i p := by
  rw [pay6_eq, pay4_eq, pay3_eq, pay2_eq]
  unfold k1_pay5
  refine congrArg₂ (· + ·) (congrArg₂ (· + ·) (congrArg₂ (· + ·) (congrArg₂ (· + ·) rfl ?_) ?_) ?_) ?_
  · exact branch_lin2 x0 x1 x2 x3 x4 x5 x6 0 _ _ _ _ _ _ rfl rfl rfl rfl rfl rfl rfl rfl i p
  · exact branch_lin2 x0 x1 x2 x3 x4 x5 x6 1 _ _ _ _ _ _ rfl rfl rfl rfl rfl rfl rfl rfl i p
  · exact branch_lin2 x0 x1 x2 x3 x4 x5 x6 2 _ _ _ _ _ _ rfl rfl rfl rfl rfl rfl rfl rfl i p
  · exact branch_lin2 x0 x1 x2 x3 x4 x5 x6 3 _ _ _ _ _ _ rfl rfl rfl rfl rfl rfl rfl rfl i p

/-- The body's one store, read back as an array [1000, 128], is the result formula of the block. -/
theorem out1_10_eq (x0 : Vec Ideal S4x1000x128 .f32) (x1 x2 x3 x4 : Vec Ideal S4x128 .f32) (x5 : Vec Ideal S4x128x128 .f32)
    (x6 : Vec Ideal S4x128 .f32) (x7 : Vec Ideal S1000x128 .f32) (x8 : Vec Ideal S128x128 .f32) (x9 : Vec Ideal S128 .f32) :
    out1_10 (F := Ideal) x0 x1 x2 x3 x4 x5 x6 x7 x8 x9 = Cert.Spec.O (Nn := 1000) x0 x1 x2 x3 x4 x5 x6 x7 x8 x9 := by
  have hz2 : (![0, 0] : Fin 2 → Nat) = fun _ => 0 := funext fun a => match a with | ⟨0, _⟩ => rfl | ⟨1, _⟩ => rfl
  have hz1 : (![0] : Fin 1 → Nat) = fun _ => 0 := funext fun a => match a with | ⟨0, _⟩ => rfl
  have e7 : View.ld x7 r1_12 = x7 := View.ld_unit_zero hz2 _ x7
  have e8 : View.ld x8 r1_13 = x8 := View.ld_unit_zero hz2 _ x8
  have e9 : View.ld x9 r1_14 = x9 := View.ld_unit_zero hz1 _ x9
  unfold out1_10
  refine (View.canon_unit_zero hz2 _ _).trans ?_
  funext j
  obtain ⟨i, p, rfl⟩ : ∃ (i : Fin 1000) (p : Fin 128), j = ix2 i p := ⟨j 0, j 1, eq_ix2 j⟩
  refine (pay1_apply _ (View.ld x7 r1_12) (View.ld x8 r1_13) (View.ld x9 r1_14) i p).trans ?_
  rw [e7, e8, e9]
  exact congrArg₂ (· + ·) rfl (acc_apply x0 x1 x2 x3 x4 x5 x6 i p)

end Cert.KernelIdeal.Pay2

end
-- ==== Proof.KStage2.lean ====
import proofs.«105238_j51762945852038_1_alg».proof.Proof.Gen.KernelIdeal.Frame
import proofs.«105238_j51762945852038_1_alg».proof.Proof.Spec
import proofs.«105238_j51762945852038_1_alg».proof.Proof.KPay2
import Idealize.ShloMosaic.Lib.Pipeline.Value
import Idealize.ShloMosaic.Lib.ValueLayout

set_option maxRecDepth 16384

noncomputable section

namespace Cert.KernelIdeal.Stage2

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The result at a node needs only that node's rows

The result formula at node n reads the first layer and the features only in row n (every relation, every channel); all
other arrays are read whole. So a block of rows that agrees with the whole arrays on its row n gives the same result there. -/

/-- If a block's row n of the first layer and of the features are the whole arrays' row N, the result formula of the
    block at n is the result formula of the whole arrays at N. -/
theorem outAt_of_rows
    (z : (Cert.Spec.SZ 50000).Idx → EReal) (mean var gamma beta : Cert.Spec.SB.Idx → EReal) (W2 : Cert.Spec.SW.Idx → EReal)
    (b2 : Cert.Spec.SB.Idx → EReal) (x : (Cert.Spec.SX 50000).Idx → EReal) (Ws : Cert.Spec.SWs.Idx → EReal)
    (bs : Cert.Spec.SBs.Idx → EReal)
    (zb : (Cert.Spec.SZ 1000).Idx → EReal) (xb : (Cert.Spec.SX 1000).Idx → EReal)
    (n : Fin 1000) (N : Fin 50000)
    (hz : ∀ (r : Fin 4) (o : Fin 128), zb (ix3 r n o) = z (ix3 r N o))
    (hx : ∀ k : Fin 128, xb (ix2 n k) = x (ix2 N k)) (p : Fin 128) :
    Cert.Spec.outAt zb mean var gamma beta W2 b2 xb Ws bs n p = Cert.Spec.outAt z mean var gamma beta W2 b2 x Ws bs N p := by
  unfold Cert.Spec.outAt Cert.Spec.selfLoop Cert.Spec.lin2 Cert.Spec.act
  simp only [hz, hx]

/-! ## Where each window's block sits at grid point t

Decided once over the 50 grid points: the two row-blocked inputs and the output sit at block row t, every other
block index is zero. -/

theorem idx_rows : ∀ t : Fin cfg1.N,
    win1_0.index t (0 : Fin 3) = 0 ∧ win1_0.index t (1 : Fin 3) = t.val ∧ win1_0.index t (2 : Fin 3) = 0
    ∧ win1_7.index t (0 : Fin 2) = t.val ∧ win1_7.index t (1 : Fin 2) = 0
    ∧ win1_10.index t (0 : Fin 2) = t.val ∧ win1_10.index t (1 : Fin 2) = 0 :=
  (by decide +kernel : ∀ t : Fin grid1.N, _)

theorem idx_whole : ∀ t : Fin cfg1.N,
    win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 3) = 0 ∧ win1_5.index t (1 : Fin 3) = 0 ∧ win1_5.index t (2 : Fin 3) = 0
    ∧ win1_6.index t (0 : Fin 2) = 0 ∧ win1_6.index t (1 : Fin 2) = 0
    ∧ win1_8.index t (0 : Fin 2) = 0 ∧ win1_8.index t (1 : Fin 2) = 0
    ∧ win1_9.index t (0 : Fin 1) = 0 :=
  (by decide +kernel : ∀ t : Fin grid1.N, _)

/-! ## Each window's block, read off its array -/

/-- The first layer's block at point t is rows 1000·t … 1000·t + 999 of every relation. -/
theorem blk_z (c : Dev nD) (t : Fin cfg1.N) (r : Fin 4) (n : Fin 1000) (o : Fin 128) (N : Fin 50000)
    (hN : N.val = t.val * 1000 + n.val) :
    (iblk1 (F := Ideal) V c 0 t : Vec Ideal S4x1000x128 .f32) (ix3 r n o)
      = (V c main_v18 : Vec Ideal S4x50000x128 .f32) (ix3 r N o) := by
  obtain ⟨e0, e1, e2, -⟩ := idx_rows t
  unfold iblk1
  show V c main_v18 (((cfg1.win 0).blk t).view.emb (ix3 r n o)) = V c main_v18 (ix3 r N o)
  congr 1
  funext a; apply Fin.ext
  match a with
  | ⟨0, _⟩ => show win1_0.index t (0 : Fin 3) * 4 + 1 * r.val = r.val; omega
  | ⟨1, _⟩ => show win1_0.index t (1 : Fin 3) * 1000 + 1 * n.val = N.val; omega
  | ⟨2, _⟩ => show win1_0.index t (2 : Fin 3) * 128 + 1 * o.val = o.val; omega

/-- The features' block at point t is rows 1000·t … 1000·t + 999. -/
theorem blk_x (c : Dev nD) (t : Fin cfg1.N) (n : Fin 1000) (k : Fin 128) (N : Fin 50000)
    (hN : N.val = t.val * 1000 + n.val) :
    (iblk1 (F := Ideal) V c 7 t : Vec Ideal S1000x128 .f32) (ix2 n k)
      = (V c main_arg0 : Vec Ideal S50000x128 .f32) (ix2 N k) := by
  obtain ⟨-, -, -, e0, e1, -⟩ := idx_rows t
  unfold iblk1
  show V c main_arg0 (((cfg1.win 7).blk t).view.emb (ix2 n k)) = V c main_arg0 (ix2 N k)
  congr 1
  funext a; apply Fin.ext
  match a with
  | ⟨0, _⟩ => show win1_7.index t (0 : Fin 2) * 1000 + 1 * n.val = N.val; omega
  | ⟨1, _⟩ => show win1_7.index t (1 : Fin 2) * 128 + 1 * k.val = k.val; omega

/-- The per-relation means are read whole: at every point their block is the array itself. -/
theorem blk_mean (c : Dev nD) (t : Fin cfg1.N) :
    (iblk1 (F := Ideal) V c 1 t : Vec Ideal S4x128 .f32) = (V c main_v21 : Vec Ideal S4x128 .f32) := by
  have e := idx_whole t
  funext y
  unfold iblk1
  show V c main_v21 (((cfg1.win 1).blk t).view.emb y) = V c main_v21 y
  congr 1
  funext a; apply Fin.ext
  match a with
  | ⟨0, _⟩ => show win1_1.index t (0 : Fin 2) * 4 + 1 * (y 0).val = (y 0).val; omega
  | ⟨1, _⟩ => show win1_1.index t (1 : Fin 2) * 128 + 1 * (y 1).val = (y 1).val; omega

/-- The per-relation variances are read whole: at every point their block is the array itself. -/
theorem blk_var (c : Dev nD) (t : Fin cfg1.N) :
    (iblk1 (F := Ideal) V c 2 t : Vec Ideal S4x128 .f32) = (V c main_v22 : Vec Ideal S4x128 .f32) := by
  have e := idx_whole t
  funext y
  unfold iblk1
  show V c main_v22 (((cfg1.win 2).blk t).view.emb y) = V c main_v22 y
  congr 1
  funext a; apply Fin.ext
  match a with
  | ⟨0, _⟩ => show win1_2.index t (0 : Fin 2) * 4 + 1 * (y 0).val = (y 0).val; omega
  | ⟨1, _⟩ => show win1_2.index t (1 : Fin 2) * 128 + 1 * (y 1).val = (y 1).val; omega

/-- The scales are read whole: at every point their block is the array itself. -/
theorem blk_gamma (c : Dev nD) (t : Fin cfg1.N) :
    (iblk1 (F := Ideal) V c 3 t : Vec Ideal S4x128 .f32) = (V c main_arg7 : Vec Ideal S4x128 .f32) := by
  have e := idx_whole t
  funext y
  unfold iblk1
  show V c main_arg7 (((cfg1.win 3).blk t).view.emb y) = V c main_arg7 y
  congr 1
  funext a; apply Fin.ext
  match a with
  | ⟨0, _⟩ => show win1_3.index t (0 : Fin 2) * 4 + 1 * (y 0).val = (y 0).val; omega
  | ⟨1, _⟩ => show win1_3.index t (1 : Fin 2) * 128 + 1 * (y 1).val = (y 1).val; omega

/-- The shifts are read whole: at every point their block is the array itself. -/
theorem blk_beta (c : Dev nD) (t : Fin cfg1.N) :
    (iblk1 (F := Ideal) V c 4 t : Vec Ideal S4x128 .f32) = (V c main_arg8 : Vec Ideal S4x128 .f32) := by
  have e := idx_whole t
  funext y
  unfold iblk1
  show V c main_arg8 (((cfg1.win 4).blk t).view.emb y) = V c main_arg8 y
  congr 1
  funext a; apply Fin.ext
  match a with
  | ⟨0, _⟩ => show win1_4.index t (0 : Fin 2) * 4 + 1 * (y 0).val = (y 0).val; omega
  | ⟨1, _⟩ => show win1_4.index t (1 : Fin 2) * 128 + 1 * (y 1).val = (y 1).val; omega

/-- The second layers' weights are read whole: at every point their block is the array itself. -/
theorem blk_W2 (c : Dev nD) (t : Fin cfg1.N) :
    (iblk1 (F := Ideal) V c 5 t : Vec Ideal S4x128x128 .f32) = (V c main_arg9 : Vec Ideal S4x128x128 .f32) := by
  have e := idx_whole t
  funext y
  unfold iblk1
  show V c main_arg9 (((cfg1.win 5).blk t).view.emb y) = V c main_arg9 y
  congr 1
  funext a; apply Fin.ext
  match a with
  | ⟨0, _⟩ => show win1_5.index t (0 : Fin 3) * 4 + 1 * (y 0).val = (y 0).val; omega
  | ⟨1, _⟩ => show win1_5.index t (1 : Fin 3) * 128 + 1 * (y 1).val = (y 1).val; omega
  | ⟨2, _⟩ => show win1_5.index t (2 : Fin 3) * 128 + 1 * (y 2).val = (y 2).val; omega

/-- The second layers' biases are read whole: at every point their block is the array itself. -/
theorem blk_b2 (c : Dev nD) (t : Fin cfg1.N) :
    (iblk1 (F := Ideal) V c 6 t : Vec Ideal S4x128 .f32) = (V c main_arg10 : Vec Ideal S4x128 .f32) := by
  have e := idx_whole t
  funext y
  unfold iblk1
  show V c main_arg10 (((cfg1.win 6).blk t).view.emb y) = V c main_arg10 y
  congr 1
  funext a; apply Fin.ext
  match a with
  | ⟨0, _⟩ => show win1_6.index t (0 : Fin 2) * 4 + 1 * (y 0).val = (y 0).val; omega
  | ⟨1, _⟩ => show win1_6.index t (1 : Fin 2) * 128 + 1 * (y 1).val = (y 1).val; omega

/-- The self loop's weight is read whole: at every point its block is the array itself. -/
theorem blk_Ws (c : Dev nD) (t : Fin cfg1.N) :
    (iblk1 (F := Ideal) V c 8 t : Vec Ideal S128x128 .f32) = (V c main_arg3 : Vec Ideal S128x128 .f32) := by
  have e := idx_whole t
  funext y
  unfold iblk1
  show V c main_arg3 (((cfg1.win 8).blk t).view.emb y) = V c main_arg3 y
  congr 1
  funext a; apply Fin.ext
  match a with
  | ⟨0, _⟩ => show win1_8.index t (0 : Fin 2) * 128 + 1 * (y 0).val = (y 0).val; omega
  | ⟨1, _⟩ => show win1_8.index t (1 : Fin 2) * 128 + 1 * (y 1).val = (y 1).val; omega

/-- The self loop's bias is read whole: at every point its block is the array itself. -/
theorem blk_bs (c : Dev nD) (t : Fin cfg1.N) :
    (iblk1 (F := Ideal) V c 9 t : Vec Ideal S128 .f32) = (V c main_arg4 : Vec Ideal S128 .f32) := by
  have e := idx_whole t
  funext y
  unfold iblk1
  show V c main_arg4 (((cfg1.win 9).blk t).view.emb y) = V c main_arg4 y
  congr 1
  funext a; apply Fin.ext
  match a with
  | ⟨0, _⟩ => show win1_9.index t (0 : Fin 1) * 128 + 1 * (y 0).val = (y 0).val; omega

/-! ## What a point writes back -/

/-- The result formula of blocks at a block index j is the result formula of the whole arrays at the array index i, when
    the whole-fetched blocks are their arrays, the two row blocks hold rows 1000·T …, and i is row 1000·T + j₀, column j₁. -/
theorem O_of_blocks
    (z : (Cert.Spec.SZ 50000).Idx → EReal) (mean var gamma beta : Cert.Spec.SB.Idx → EReal) (W2 : Cert.Spec.SW.Idx → EReal)
    (b2 : Cert.Spec.SB.Idx → EReal) (x : (Cert.Spec.SX 50000).Idx → EReal) (Ws : Cert.Spec.SWs.Idx → EReal)
    (bs : Cert.Spec.SBs.Idx → EReal)
    (zb : (Cert.Spec.SZ 1000).Idx → EReal) (meanb varb gammab betab : Cert.Spec.SB.Idx → EReal) (W2b : Cert.Spec.SW.Idx → EReal)
    (b2b : Cert.Spec.SB.Idx → EReal) (xb : (Cert.Spec.SX 1000).Idx → EReal) (Wsb : Cert.Spec.SWs.Idx → EReal)
    (bsb : Cert.Spec.SBs.Idx → EReal)
    (hmean : meanb = mean) (hvar : varb = var) (hgamma : gammab = gamma) (hbeta : betab = beta) (hW2 : W2b = W2)
    (hb2 : b2b = b2) (hWs : Wsb = Ws) (hbs : bsb = bs)
    (j : (Cert.Spec.SX 1000).Idx) (i : (Cert.Spec.SX 50000).Idx) (T : Nat)
    (h0 : (i 0).val = T * 1000 + (j 0).val) (h1 : (i 1).val = (j 1).val)
    (hz : ∀ (r : Fin 4) (n : Fin 1000) (o : Fin 128) (N : Fin 50000), N.val = T * 1000 + n.val → zb (ix3 r n o) = z (ix3 r N o))
    (hx : ∀ (n : Fin 1000) (k : Fin 128) (N : Fin 50000), N.val = T * 1000 + n.val → xb (ix2 n k) = x (ix2 N k)) :
    Cert.Spec.O zb meanb varb gammab betab W2b b2b xb Wsb bsb j = Cert.Spec.O z mean var gamma beta W2 b2 x Ws bs i := by
  subst hmean hvar hgamma hbeta hW2 hb2 hWs hbs
  obtain ⟨n, p, rfl⟩ : ∃ (n : Fin 1000) (p : Fin 128), j = ix2 n p := ⟨j 0, j 1, eq_ix2 j⟩
  obtain ⟨N, P, rfl⟩ : ∃ (N : Fin 50000) (P : Fin 128), i = ix2 N P := ⟨i 0, i 1, eq_ix2 i⟩
  have h0' : N.val = T * 1000 + n.val := h0
  obtain rfl : P = p := Fin.ext h1
  show Cert.Spec.outAt zb meanb varb gammab betab W2b b2b xb Wsb bsb n P = Cert.Spec.outAt z meanb varb gammab betab W2b b2b x Wsb bsb N P
  exact outAt_of_rows z meanb varb gammab betab W2b b2b x Wsb bsb zb xb n N (fun r o => hz r n o N h0') (fun k => hx n k N h0') P

/-- What point t writes back is block t of the result formula of the arrays the region found. -/
theorem flushed_eq (c : Dev nD) (t : Fin cfg1.N) :
    (dat1 (F := Ideal) V c).flushed 10 t
      = ((cfg1.win 10).blk t).view.read (Elt Ideal) (Cert.Spec.O (Nn := 50000) (V c main_v18) (V c main_v21) (V c main_v22) (V c main_arg7) (V c main_arg8) (V c main_arg9)
          (V c main_arg10) (V c main_arg0) (V c main_arg3) (V c main_arg4)) := by
  show (cfg1.win 10).cut (grid1.coords t) ((dat1 V c).after 10 t) = _
  rw [after1_10, Cert.KernelIdeal.Pay2.out1_10_eq]
  obtain ⟨-, -, -, -, -, e0, e1⟩ := idx_rows t
  funext j
  refine O_of_blocks (V c main_v18) (V c main_v21) (V c main_v22) (V c main_arg7) (V c main_arg8) (V c main_arg9)
    (V c main_arg10) (V c main_arg0) (V c main_arg3) (V c main_arg4)
    (iblk1 V c 0 t) (iblk1 V c 1 t) (iblk1 V c 2 t) (iblk1 V c 3 t) (iblk1 V c 4 t) (iblk1 V c 5 t) (iblk1 V c 6 t)
    (iblk1 V c 7 t) (iblk1 V c 8 t) (iblk1 V c 9 t)
    (blk_mean V c t) (blk_var V c t) (blk_gamma V c t) (blk_beta V c t) (blk_W2 V c t) (blk_b2 V c t) (blk_Ws V c t) (blk_bs V c t)
    _ (((cfg1.win 10).blk t).view.emb j) t.val ?_ ?_
    (fun r n o N h => blk_z V c t r n o N h) (fun n k N h => blk_x V c t n k N h)
  · show win1_10.index t (0 : Fin 2) * 1000 + 1 * (j 0).val = t.val * 1000 + (j 0).val
    omega
  · show win1_10.index t (1 : Fin 2) * 128 + 1 * (j 1).val = (j 1).val
    omega

/-! ## The blocks cover the array -/

/-- An index of the array is in point t's block iff each coordinate is in the block's range on its axis. -/
theorem mem_blk (t : Fin cfg1.N) (i : S50000x128.Idx) :
    i ∈ ((cfg1.win 10).blk t).view.set ↔ ∀ a : Fin 2, win1_10.index t a * S1000x128.size a ≤ (i a).val ∧ (i a).val < win1_10.index t a * S1000x128.size a + S1000x128.size a := by
  show i ∈ ((View.whole main_v23).slice (win1_10.rect t)).set ↔ _
  rw [View.set_slice_whole, Rect.mem_set_unit]
  exact Iff.rfl

/-- Row n of the array lies in the block of point n / 1000, and every point writes its block back. -/
theorem cover (i : S50000x128.Idx) :
    ∃ t : Fin cfg1.N, (cfg1.win 10).flush t = true ∧ i ∈ ((cfg1.win 10).blk t).view.set := by
  have hi0 : (i 0).val < 50000 := (i 0).isLt
  have hi1 : (i 1).val < 128 := (i 1).isLt
  have hN : cfg1.N = 50 := N_1
  obtain ⟨t, ht⟩ : ∃ t : Fin cfg1.N, t.val = (i 0).val / 1000 := ⟨⟨(i 0).val / 1000, by rw [hN]; omega⟩, rfl⟩
  obtain ⟨-, -, -, -, -, e0, e1⟩ := idx_rows t
  refine ⟨t, flush1_10 t, ?_⟩
  rw [mem_blk]
  intro a
  match a with
  | ⟨0, _⟩ => show win1_10.index t (0 : Fin 2) * 1000 ≤ (i 0).val ∧ (i 0).val < win1_10.index t (0 : Fin 2) * 1000 + 1000; omega
  | ⟨1, _⟩ => show win1_10.index t (1 : Fin 2) * 128 ≤ (i 1).val ∧ (i 1).val < win1_10.index t (1 : Fin 2) * 128 + 128; omega

/-- After the second region its output array holds the result formula of the arrays the region found. -/
theorem final (c : Dev nD) :
    (dat1 (F := Ideal) V c).arrAt 10 cfg1.N
      = Cert.Spec.O (Nn := 50000) (V c main_v18) (V c main_v21) (V c main_v22) (V c main_arg7) (V c main_arg8) (V c main_arg9)
          (V c main_arg10) (V c main_arg0) (V c main_arg3) (V c main_arg4) := by
  exact (dat1 (F := Ideal) V c).arrAt_eq_of_cover 10 _ (fun t _ => flushed_eq V c t) cover

end Cert.KernelIdeal.Stage2

end
-- ==== Proof.KValue.lean ====
import proofs.«105238_j51762945852038_1_alg».proof.Proof.KRun
import proofs.«105238_j51762945852038_1_alg».proof.Proof.KHost
import proofs.«105238_j51762945852038_1_alg».proof.Proof.KStage1
import proofs.«105238_j51762945852038_1_alg».proof.Proof.KStage2

/-!
  The kernel's program read as a value, on the extended reals: its result array is the specification's result formula
  of the first linear layer z = Z(x, A, W1, b1), of z's mean and variance over the nodes as the host computes them
  between the two regions, and of the remaining arguments; A the neighbour sums the host computes before the first region.
-/

set_option maxRecDepth 16384

noncomputable section

namespace Cert.KernelIdeal.Value

open Cert.KernelIdeal Cert.KernelIdeal.Gen
open Idealize.ShloMosaic Idealize.ShloMosaic.TcCoe Idealize.SL.Sem

/-- The kernel program's result as one function of its eleven arguments. -/
def result (x : FVec Ideal S50000x128 .f32) (ei : (⟨S2x600000, .i32⟩ : BufTy).Contents (Elt Ideal))
    (et : (⟨S600000, .i32⟩ : BufTy).Contents (Elt Ideal)) (Ws : FVec Ideal S128x128 .f32) (bs : FVec Ideal S128 .f32)
    (W1 : FVec Ideal S4x128x128 .f32) (b1 gamma beta : FVec Ideal S4x128 .f32) (W2 : FVec Ideal S4x128x128 .f32)
    (b2 : FVec Ideal S4x128 .f32) : FVec Ideal S50000x128 .f32 :=
  Cert.Spec.O (Nn := 50000) (Cert.Spec.Z (Nn := 50000) x (Stages.agg (F := Ideal) x ei et) W1 b1)
    (Stages.mean2 (F := Ideal) (Cert.Spec.Z (Nn := 50000) x (Stages.agg (F := Ideal) x ei et) W1 b1))
    (Stages.var2 (F := Ideal) (Cert.Spec.Z (Nn := 50000) x (Stages.agg (F := Ideal) x ei et) W1 b1))
    gamma beta W2 b2 x Ws bs

variable (m : (ℓ : Loc nD τ sig) → Buf (Elt Ideal) ℓ) (ρ : Dev nD → PrngReg)

/-- The first region's output array is z of the launch arguments. -/
theorem z_eq (c : Dev nD) : V4 m ρ c main_v18
    = Cert.Spec.Z (Nn := 50000) (m ((c : Thread nD τ).loc main_arg0))
        (Stages.agg (F := Ideal) (m ((c : Thread nD τ).loc main_arg0)) (m ((c : Thread nD τ).loc main_arg1)) (m ((c : Thread nD τ).loc main_arg2)))
        (m ((c : Thread nD τ).loc main_arg5)) (m ((c : Thread nD τ).loc main_arg6)) := by
  rw [HostVals.V4_v18, Stage1.final (V1 m ρ) c, HostVals.V1_arg0, HostVals.V1_v17, HostVals.V1_arg5, HostVals.V1_arg6]

/-- The result buffer after the second region is the result formula of the launch arguments. -/
theorem v23_eq (c : Dev nD) : W5 m ρ c (Proc.devRef .tc main_v23)
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [show W5 m ρ c (Proc.devRef .tc main_v23) = (dat1 (V4 m ρ) c).arrAt 10 cfg1.N from W5_arr m ρ c 10,
    Stage2.final (V4 m ρ) c, HostVals.V4_v21, HostVals.V4_v22, z_eq, HostVals.V4_arg7, HostVals.V4_arg8, HostVals.V4_arg9,
    HostVals.V4_arg10, HostVals.V4_arg0, HostVals.V4_arg3, HostVals.V4_arg4]
  rfl

/-- Every weakly fair execution of the kernel's program terminates without a fault, its result at the result formula
    of the arguments as launched and the arguments unchanged. -/
theorem run : θ_run defs (onTc (τ := τ) (main (F := Ideal))) ⟨m, fun _ => 0, ρ⟩ fun r => ∀ c : Dev nD,
      r.2.mem ((c.tc : Thread nD τ).loc main_v23) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨(h c).1.trans (v23_eq m ρ c), (h c).2⟩) (KRun.run_main (F := Ideal) m ρ)

end Cert.KernelIdeal.Value

end
-- ==== Proof.RStages.lean ====
import proofs.«105238_j51762945852038_1_alg».proof.Proof.Gen.ReferenceIdeal

/-!
  The stages of the reference program, each as one function of the arrays it reads: the per-relation neighbour sums,
  the first linear layer, its mean and (biased) variance over the nodes with a kept unit axis, and everything after
  them (normalise, scale, shift, rectify, the second linear layer, the sum over the relations, the self loop).
-/

noncomputable section

namespace Cert.ReferenceIdeal.Stages

open Cert.ReferenceIdeal Cert.ReferenceIdeal.Gen Idealize.ShloMosaic

variable {F : FTy → Type} [FloatOps F]

/-- The neighbour sums A(r, n, ·): rows of x gathered at the (wrapped) source ids and added into row
    relation·50000 + destination of a zero array, then viewed as [4, 50000, 128]. -/
def agg (x : (⟨S50000x128, .f32⟩ : BufTy).Contents (Elt F)) (ei : (⟨S2x600000, .i32⟩ : BufTy).Contents (Elt F))
    (et : (⟨S600000, .i32⟩ : BufTy).Contents (Elt F)) : (⟨S4x50000x128, .f32⟩ : BufTy).Contents (Elt F) :=
  let row := shapeCast S600000 (extractStridedSlice S1x600000 ![0, 0] ei slices_S2x600000_S1x600000_0_0) shapeCasts_S1x600000_S600000
  let col := shapeCast S600000 (extractStridedSlice S1x600000 ![1, 0] ei slices_S2x600000_S1x600000_1_0) shapeCasts_S1x600000_S600000
  let seg : (⟨S600000, .i32⟩ : BufTy).Contents (Elt F) :=
    addi (muli et (broadcastInDim S600000 ![] bcast_S_S600000 (constantI S_ 32 50000#32))) row
  let colw : (⟨S600000, .i32⟩ : BufTy).Contents (Elt F) :=
    select (cmpi .slt col (broadcastInDim S600000 ![] bcast_S_S600000 (constantI S_ 32 0#32)))
      (addi col (broadcastInDim S600000 ![] bcast_S_S600000 (constantI S_ 32 50000#32))) col
  let xcol : (⟨S600000x128, .f32⟩ : BufTy).Contents (Elt F) :=
    Host.gather gather_S50000x128_S600000x1_S600000x128_1_0_n_n_0_1_1128 x (broadcastInDim S600000x1 ![0] bcast_S600000_S600000x1_0 colw)
  let flat : (⟨S200000x128, .f32⟩ : BufTy).Contents (Elt F) :=
    Host.scatterAdd scatter_S200000x128_S600000x1_S600000x128_1_0_0_1
      (broadcastInDim S200000x128 ![] bcast_S_S200000x128 (constant S_ .f32 0x00000000#32))
      (broadcastInDim S600000x1 ![0] bcast_S600000_S600000x1_0 seg) xcol
  shapeCast S4x50000x128 flat shapeCasts_S200000x128_S4x50000x128

/-- A [4, 128] array along the node axis: [4, 128] → [4, 1, 128] → [4, 50000, 128]. -/
def bcRow (v : (⟨S4x128, .f32⟩ : BufTy).Contents (Elt F)) : (⟨S4x50000x128, .f32⟩ : BufTy).Contents (Elt F) :=
  broadcastInDim S4x50000x128 ![0, 1, 2] bcast_S4x1x128_S4x50000x128_0_1_2 (broadcastInDim S4x1x128 ![0, 2] bcast_S4x128_S4x1x128_0_2 v)

/-- The first linear layer: (x + A) contracted with W1 per relation, plus b1. -/
def hpre (x : (⟨S50000x128, .f32⟩ : BufTy).Contents (Elt F)) (A : (⟨S4x50000x128, .f32⟩ : BufTy).Contents (Elt F)) (W1 : (⟨S4x128x128, .f32⟩ : BufTy).Contents (Elt F)) (b1 : (⟨S4x128, .f32⟩ : BufTy).Contents (Elt F)) : (⟨S4x50000x128, .f32⟩ : BufTy).Contents (Elt F) :=
  addf (Host.dotGeneral dot_S4x50000x128_S4x128x128_S4x50000x128_2_1_1_2_0_0 none
      (addf (broadcastInDim S4x50000x128 ![0, 1, 2] bcast_S1x50000x128_S4x50000x128_0_1_2
          (broadcastInDim S1x50000x128 ![1, 2] bcast_S50000x128_S1x50000x128_1_2 x)) A) W1)
    (bcRow b1)

/-- The mean over the nodes with a kept unit axis, [4, 1, 128]. -/
def mean3 (h : (⟨S4x50000x128, .f32⟩ : BufTy).Contents (Elt F)) : (⟨S4x1x128, .f32⟩ : BufTy).Contents (Elt F) :=
  Host.divf (broadcastInDim S4x1x128 ![0, 2] bcast_S4x128_S4x1x128_0_2
      (Host.reduceAdd h (constant S_ .f32 0x00000000#32) reducesTo_S4x50000x128_S4x128_d1 h_S_))
    (broadcastInDim S4x1x128 ![] bcast_S_S4x1x128 (constant S_ .f32 0x47435000#32))

/-- The centred squares (h − mean)², [4, 50000, 128]. -/
def sq (h : (⟨S4x50000x128, .f32⟩ : BufTy).Contents (Elt F)) : (⟨S4x50000x128, .f32⟩ : BufTy).Contents (Elt F) :=
  let d : (⟨S4x50000x128, .f32⟩ : BufTy).Contents (Elt F) :=
    subf h (broadcastInDim S4x50000x128 ![0, 1, 2] bcast_S4x1x128_S4x50000x128_0_1_2 (mean3 h))
  mulf d d

/-- The divisor 50000 − ddof, ddof = 0 converted to a float. -/
def cnt : (⟨S_, .f32⟩ : BufTy).Contents (Elt F) :=
  subf (constant S_ .f32 0x47435000#32) (sitofp .f32 (constantI S_ 32 0#32))

/-- The variance over the nodes with a kept unit axis, [4, 1, 128]: the sum of the centred squares over the divisor
    where the divisor is positive, else the not-a-number word. -/
def var3 (h : (⟨S4x50000x128, .f32⟩ : BufTy).Contents (Elt F)) : (⟨S4x1x128, .f32⟩ : BufTy).Contents (Elt F) :=
  select (broadcastInDim S4x1x128 ![] bcast_S_S4x1x128 (cmpf .ogt (cnt (F := F)) (constant S_ .f32 0x00000000#32)))
    (Host.divf (broadcastInDim S4x1x128 ![0, 2] bcast_S4x128_S4x1x128_0_2
        (Host.reduceAdd (sq h) (constant S_ .f32 0x00000000#32) reducesTo_S4x50000x128_S4x128_d1 h_S_))
      (broadcastInDim S4x1x128 ![] bcast_S_S4x1x128 (cnt (F := F))))
    (broadcastInDim S4x1x128 ![] bcast_S_S4x1x128 (id (constant S_ .f32 0x7FC00000#32)))

/-- Everything after the statistics: normalise by them, scale and shift, rectify, the second linear layer plus b2,
    summed over the relations onto zero, added to the self loop x·Wself + bself. -/
def out (h : (⟨S4x50000x128, .f32⟩ : BufTy).Contents (Elt F)) (mean var : (⟨S4x1x128, .f32⟩ : BufTy).Contents (Elt F)) (gamma beta : (⟨S4x128, .f32⟩ : BufTy).Contents (Elt F))
    (W2 : (⟨S4x128x128, .f32⟩ : BufTy).Contents (Elt F)) (b2 : (⟨S4x128, .f32⟩ : BufTy).Contents (Elt F)) (x : (⟨S50000x128, .f32⟩ : BufTy).Contents (Elt F)) (Ws : (⟨S128x128, .f32⟩ : BufTy).Contents (Elt F))
    (bs : (⟨S128, .f32⟩ : BufTy).Contents (Elt F)) : (⟨S50000x128, .f32⟩ : BufTy).Contents (Elt F) :=
  let nrm : (⟨S4x50000x128, .f32⟩ : BufTy).Contents (Elt F) :=
    mulf (subf h (broadcastInDim S4x50000x128 ![0, 1, 2] bcast_S4x1x128_S4x50000x128_0_1_2 mean))
      (broadcastInDim S4x50000x128 ![0, 1, 2] bcast_S4x1x128_S4x50000x128_0_1_2
        (Host.rsqrt (addf var (broadcastInDim S4x1x128 ![] bcast_S_S4x1x128 (constant S_ .f32 0x3727C5AC#32)))))
  let a : (⟨S4x50000x128, .f32⟩ : BufTy).Contents (Elt F) :=
    maximumf (addf (mulf nrm (bcRow gamma)) (bcRow beta))
      (broadcastInDim S4x50000x128 ![] bcast_S_S4x50000x128 (constant S_ .f32 0x00000000#32))
  let h2 : (⟨S4x50000x128, .f32⟩ : BufTy).Contents (Elt F) :=
    addf (Host.dotGeneral dot_S4x50000x128_S4x128x128_S4x50000x128_2_1_1_2_0_0 none a W2) (bcRow b2)
  let self : (⟨S50000x128, .f32⟩ : BufTy).Contents (Elt F) :=
    addf (Host.dotGeneral dot_S50000x128_S128x128_S50000x128_1_0_0_1_n_n none x Ws)
      (broadcastInDim S50000x128 ![0, 1] bcast_S1x128_S50000x128_0_1 (broadcastInDim S1x128 ![1] bcast_S128_S1x128_1 bs))
  addf self (Host.reduceAdd h2 (constant S_ .f32 0x00000000#32) reducesTo_S4x50000x128_S50000x128_d0 h_S_)

/-- The reference's result as one function of its eleven arguments. -/
def result (x : (⟨S50000x128, .f32⟩ : BufTy).Contents (Elt F)) (ei : (⟨S2x600000, .i32⟩ : BufTy).Contents (Elt F))
    (et : (⟨S600000, .i32⟩ : BufTy).Contents (Elt F)) (Ws : (⟨S128x128, .f32⟩ : BufTy).Contents (Elt F)) (bs : (⟨S128, .f32⟩ : BufTy).Contents (Elt F))
    (W1 : (⟨S4x128x128, .f32⟩ : BufTy).Contents (Elt F)) (b1 gamma beta : (⟨S4x128, .f32⟩ : BufTy).Contents (Elt F)) (W2 : (⟨S4x128x128, .f32⟩ : BufTy).Contents (Elt F)) (b2 : (⟨S4x128, .f32⟩ : BufTy).Contents (Elt F)) : (⟨S50000x128, .f32⟩ : BufTy).Contents (Elt F) :=
  let h := hpre x (agg x ei et) W1 b1
  out h (mean3 h) (var3 h) gamma beta W2 b2 x Ws bs

end Cert.ReferenceIdeal.Stages

end
-- ==== Proof.RRun.lean ====
import proofs.«105238_j51762945852038_1_alg».proof.Proof.Gen.ReferenceIdeal
import proofs.«105238_j51762945852038_1_alg».proof.Proof.RStages
import Idealize.ShloMosaic.Lib.StableHlo.Run
import Idealize.ShloMosaic.Lib.Pipeline.Regions

/-!
  The reference program's run: its @main is a straight line of host operations (the three functions it calls laid out
  in place), so every weakly fair execution terminates with the result buffer at the composition of the stages
  (`Stages.result`) of the argument arrays as launched, and the argument arrays unchanged.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the bodies of the three functions it calls in place at their calls, each over the
    buffers that call names. -/
abbrev ops : List (HloOp τ sig (Elt F)) :=
  [ StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000,
    StableHlo.nullary main_c (constantI S_ 32 50000#32),
    StableHlo.unary main_c main_v4 (broadcastInDim S600000 ![] bcast_S_S600000 : (⟨S_, .i32⟩ : BufTy).Contents (Elt F) → (⟨S600000, .i32⟩ : BufTy).Contents (Elt F)),
    StableHlo.binary main_arg2 main_v4 main_v5 (muli : (⟨S600000, .i32⟩ : BufTy).Contents (Elt F) → (⟨S600000, .i32⟩ : BufTy).Contents (Elt F) → (⟨S600000, .i32⟩ : BufTy).Contents (Elt F)),
    StableHlo.binary main_v5 main_v1 main_v6 (addi : (⟨S600000, .i32⟩ : BufTy).Contents (Elt F) → (⟨S600000, .i32⟩ : BufTy).Contents (Elt F) → (⟨S600000, .i32⟩ : BufTy).Contents (Elt F)),
    StableHlo.nullary main_c_0 (constantI S_ 32 0#32),
    StableHlo.unary main_c_0 main_v7 (broadcastInDim S600000 ![] bcast_S_S600000 : (⟨S_, .i32⟩ : BufTy).Contents (Elt F) → (⟨S600000, .i32⟩ : BufTy).Contents (Elt F)),
    StableHlo.binary main_v3 main_v7 main_v8 (cmpi .slt : (⟨S600000, .i32⟩ : BufTy).Contents (Elt F) → (⟨S600000, .i32⟩ : BufTy).Contents (Elt F) → (⟨S600000, .i1⟩ : BufTy).Contents (Elt F)),
    StableHlo.nullary main_c_1 (constantI S_ 32 50000#32),
    StableHlo.unary main_c_1 main_v9 (broadcastInDim S600000 ![] bcast_S_S600000 : (⟨S_, .i32⟩ : BufTy).Contents (Elt F) → (⟨S600000, .i32⟩ : BufTy).Contents (Elt F)),
    StableHlo.binary main_v3 main_v9 main_v10 (addi : (⟨S600000, .i32⟩ : BufTy).Contents (Elt F) → (⟨S600000, .i32⟩ : BufTy).Contents (Elt F) → (⟨S600000, .i32⟩ : BufTy).Contents (Elt F)),
    StableHlo.ternary main_v8 main_v10 main_v3 main_v11 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v11 main_v12 (broadcastInDim S600000x1 ![0] bcast_S600000_S600000x1_0 : (⟨S600000, .i32⟩ : BufTy).Contents (Elt F) → (⟨S600000x1, .i32⟩ : BufTy).Contents (Elt F)),
    StableHlo.binary main_arg0 main_v12 main_v13 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst (constant S_ .f32 0x00000000#32),
    StableHlo.unary main_cst main_v14 (broadcastInDim S200000x128 ![] bcast_S_S200000x128 : (⟨S_, .f32⟩ : BufTy).Contents (Elt F) → (⟨S200000x128, .f32⟩ : BufTy).Contents (Elt F)),
    StableHlo.unary main_v6 main_v15 (broadcastInDim S600000x1 ![0] bcast_S600000_S600000x1_0 : (⟨S600000, .i32⟩ : BufTy).Contents (Elt F) → (⟨S600000x1, .i32⟩ : BufTy).Contents (Elt F)),
    StableHlo.ternary main_v14 main_v15 main_v13 main_v16 ((fun x i u => Host.scatterAdd scatter_S200000x128_S600000x1_S600000x128_1_0_0_1 x i u) : (⟨S200000x128, .f32⟩ : BufTy).Contents (Elt F) → (⟨S600000x1, .i32⟩ : BufTy).Contents (Elt F) → (⟨S600000x128, .f32⟩ : BufTy).Contents (Elt F) → (⟨S200000x128, .f32⟩ : BufTy).Contents (Elt F)),
    StableHlo.reshape main_v16 main_v17 rfl shapeCasts_S200000x128_S4x50000x128,
    StableHlo.unary main_arg0 main_v18 (broadcastInDim S1x50000x128 ![1, 2] bcast_S50000x128_S1x50000x128_1_2 : (⟨S50000x128, .f32⟩ : BufTy).Contents (Elt F) → (⟨S1x50000x128, .f32⟩ : BufTy).Contents (Elt F)),
    StableHlo.unary main_v18 main_v19 (broadcastInDim S4x50000x128 ![0, 1, 2] bcast_S1x50000x128_S4x50000x128_0_1_2 : (⟨S1x50000x128, .f32⟩ : BufTy).Contents (Elt F) → (⟨S4x50000x128, .f32⟩ : BufTy).Contents (Elt F)),
    StableHlo.binary main_v19 main_v17 main_v20 (addf : (⟨S4x50000x128, .f32⟩ : BufTy).Contents (Elt F) → (⟨S4x50000x128, .f32⟩ : BufTy).Contents (Elt F) → (⟨S4x50000x128, .f32⟩ : BufTy).Contents (Elt F)),
    StableHlo.binary main_v20 main_arg5 main_v21 ((fun l r => Host.dotGeneral dot_S4x50000x128_S4x128x128_S4x50000x128_2_1_1_2_0_0 none l r) : (⟨S4x50000x128, .f32⟩ : BufTy).Contents (Elt F) → (⟨S4x128x128, .f32⟩ : BufTy).Contents (Elt F) → (⟨S4x50000x128, .f32⟩ : BufTy).Contents (Elt F)),
    StableHlo.unary main_arg6 main_v22 (broadcastInDim S4x1x128 ![0, 2] bcast_S4x128_S4x1x128_0_2 : (⟨S4x128, .f32⟩ : BufTy).Contents (Elt F) → (⟨S4x1x128, .f32⟩ : BufTy).Contents (Elt F)),
    StableHlo.unary main_v22 main_v23 (broadcastInDim S4x50000x128 ![0, 1, 2] bcast_S4x1x128_S4x50000x128_0_1_2 : (⟨S4x1x128, .f32⟩ : BufTy).Contents (Elt F) → (⟨S4x50000x128, .f32⟩ : BufTy).Contents (Elt F)),
    StableHlo.binary main_v21 main_v23 main_v24 (addf : (⟨S4x50000x128, .f32⟩ : BufTy).Contents (Elt F) → (⟨S4x50000x128, .f32⟩ : BufTy).Contents (Elt F) → (⟨S4x50000x128, .f32⟩ : BufTy).Contents (Elt F)),
    StableHlo.nullary main_cst_2 (constant S_ .f32 0x00000000#32),
    StableHlo.binary main_v24 main_cst_2 main_v25 ((fun x v => Host.reduceAdd x v reducesTo_S4x50000x128_S4x128_d1 h_S_) : (⟨S4x50000x128, .f32⟩ : BufTy).Contents (Elt F) → (⟨S_, .f32⟩ : BufTy).Contents (Elt F) → (⟨S4x128, .f32⟩ : BufTy).Contents (Elt F)),
    StableHlo.unary main_v25 main_v26 (broadcastInDim S4x1x128 ![0, 2] bcast_S4x128_S4x1x128_0_2 : (⟨S4x128, .f32⟩ : BufTy).Contents (Elt F) → (⟨S4x1x128, .f32⟩ : BufTy).Contents (Elt F)),
    StableHlo.nullary main_cst_3 (constant S_ .f32 0x47435000#32),
    StableHlo.unary main_cst_3 main_v27 (broadcastInDim S4x1x128 ![] bcast_S_S4x1x128 : (⟨S_, .f32⟩ : BufTy).Contents (Elt F) → (⟨S4x1x128, .f32⟩ : BufTy).Contents (Elt F)),
    StableHlo.binary main_v26 main_v27 main_v28 (Host.divf : (⟨S4x1x128, .f32⟩ : BufTy).Contents (Elt F) → (⟨S4x1x128, .f32⟩ : BufTy).Contents (Elt F) → (⟨S4x1x128, .f32⟩ : BufTy).Contents (Elt F)),
    StableHlo.nullary main_c_4 (constantI S_ 32 0#32),
    StableHlo.TRef.nullary main_call0.cst (constant S_ .f32 0x00000000#32),
    StableHlo.TRef.binary (.of main_v24 : StableHlo.TRef sig ⟨S4x50000x128, .f32⟩) main_call0.cst main_call0.v0 (fun x v => Host.reduceAdd x v reducesTo_S4x50000x128_S4x128_d1 h_S_),
    StableHlo.TRef.unary main_call0.v0 main_call0.v1 (broadcastInDim S4x1x128 ![0, 2] bcast_S4x128_S4x1x128_0_2),
    StableHlo.TRef.nullary main_call0.cst_0 (constant S_ .f32 0x47435000#32),
    StableHlo.TRef.unary main_call0.cst_0 main_call0.v2 (broadcastInDim S4x1x128 ![] bcast_S_S4x1x128),
    StableHlo.TRef.binary main_call0.v1 main_call0.v2 main_call0.v3 Host.divf,
    StableHlo.TRef.unary main_call0.v3 main_call0.v4 (broadcastInDim S4x50000x128 ![0, 1, 2] bcast_S4x1x128_S4x50000x128_0_1_2),
    StableHlo.TRef.binary (.of main_v24 : StableHlo.TRef sig ⟨S4x50000x128, .f32⟩) main_call0.v4 main_call0.v5 subf,
    StableHlo.TRef.binary main_call0.v5 main_call0.v5 main_call0.v6 mulf,
    StableHlo.TRef.unary (.of main_c_4 : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S4x50000x128_S4x128_d1 h_S_),
    StableHlo.TRef.unary main_call0.v9 main_call0.v10 (broadcastInDim S4x1x128 ![0, 2] bcast_S4x128_S4x1x128_0_2),
    StableHlo.TRef.unary main_call0.v8 main_call0.v11 (broadcastInDim S4x1x128 ![] bcast_S_S4x1x128),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S4x1x128 ![] bcast_S_S4x1x128),
    StableHlo.TRef.ternary main_call0.v13 main_call0.v12 main_call0.call0.v1 main_call0.call0.v2 (fun p a b => select (broadcastInDim S4x1x128 ![] bcast_S_S4x1x128 p) a b),
    StableHlo.unary main_v28 main_v30 (broadcastInDim S4x50000x128 ![0, 1, 2] bcast_S4x1x128_S4x50000x128_0_1_2 : (⟨S4x1x128, .f32⟩ : BufTy).Contents (Elt F) → (⟨S4x50000x128, .f32⟩ : BufTy).Contents (Elt F)),
    StableHlo.binary main_v24 main_v30 main_v31 (subf : (⟨S4x50000x128, .f32⟩ : BufTy).Contents (Elt F) → (⟨S4x50000x128, .f32⟩ : BufTy).Contents (Elt F) → (⟨S4x50000x128, .f32⟩ : BufTy).Contents (Elt F)),
    StableHlo.nullary main_cst_5 (constant S_ .f32 0x3727C5AC#32),
    StableHlo.unary main_cst_5 main_v32 (broadcastInDim S4x1x128 ![] bcast_S_S4x1x128 : (⟨S_, .f32⟩ : BufTy).Contents (Elt F) → (⟨S4x1x128, .f32⟩ : BufTy).Contents (Elt F)),
    StableHlo.binary main_v29 main_v32 main_v33 (addf : (⟨S4x1x128, .f32⟩ : BufTy).Contents (Elt F) → (⟨S4x1x128, .f32⟩ : BufTy).Contents (Elt F) → (⟨S4x1x128, .f32⟩ : BufTy).Contents (Elt F)),
    StableHlo.unary main_v33 main_v34 (Host.rsqrt : (⟨S4x1x128, .f32⟩ : BufTy).Contents (Elt F) → (⟨S4x1x128, .f32⟩ : BufTy).Contents (Elt F)),
    StableHlo.unary main_v34 main_v35 (broadcastInDim S4x50000x128 ![0, 1, 2] bcast_S4x1x128_S4x50000x128_0_1_2 : (⟨S4x1x128, .f32⟩ : BufTy).Contents (Elt F) → (⟨S4x50000x128, .f32⟩ : BufTy).Contents (Elt F)),
    StableHlo.binary main_v31 main_v35 main_v36 (mulf : (⟨S4x50000x128, .f32⟩ : BufTy).Contents (Elt F) → (⟨S4x50000x128, .f32⟩ : BufTy).Contents (Elt F) → (⟨S4x50000x128, .f32⟩ : BufTy).Contents (Elt F)),
    StableHlo.unary main_arg7 main_v37 (broadcastInDim S4x1x128 ![0, 2] bcast_S4x128_S4x1x128_0_2 : (⟨S4x128, .f32⟩ : BufTy).Contents (Elt F) → (⟨S4x1x128, .f32⟩ : BufTy).Contents (Elt F)),
    StableHlo.unary main_v37 main_v38 (broadcastInDim S4x50000x128 ![0, 1, 2] bcast_S4x1x128_S4x50000x128_0_1_2 : (⟨S4x1x128, .f32⟩ : BufTy).Contents (Elt F) → (⟨S4x50000x128, .f32⟩ : BufTy).Contents (Elt F)),
    StableHlo.binary main_v36 main_v38 main_v39 (mulf : (⟨S4x50000x128, .f32⟩ : BufTy).Contents (Elt F) → (⟨S4x50000x128, .f32⟩ : BufTy).Contents (Elt F) → (⟨S4x50000x128, .f32⟩ : BufTy).Contents (Elt F)),
    StableHlo.unary main_arg8 main_v40 (broadcastInDim S4x1x128 ![0, 2] bcast_S4x128_S4x1x128_0_2 : (⟨S4x128, .f32⟩ : BufTy).Contents (Elt F) → (⟨S4x1x128, .f32⟩ : BufTy).Contents (Elt F)),
    StableHlo.unary main_v40 main_v41 (broadcastInDim S4x50000x128 ![0, 1, 2] bcast_S4x1x128_S4x50000x128_0_1_2 : (⟨S4x1x128, .f32⟩ : BufTy).Contents (Elt F) → (⟨S4x50000x128, .f32⟩ : BufTy).Contents (Elt F)),
    StableHlo.binary main_v39 main_v41 main_v42 (addf : (⟨S4x50000x128, .f32⟩ : BufTy).Contents (Elt F) → (⟨S4x50000x128, .f32⟩ : BufTy).Contents (Elt F) → (⟨S4x50000x128, .f32⟩ : BufTy).Contents (Elt F)),
    StableHlo.TRef.nullary main_call1.cst (constant S_ .f32 0x00000000#32),
    StableHlo.TRef.unary main_call1.cst main_call1.v0 (broadcastInDim S4x50000x128 ![] bcast_S_S4x50000x128),
    StableHlo.TRef.binary (.of main_v42 : StableHlo.TRef sig ⟨S4x50000x128, .f32⟩) main_call1.v0 main_call1.v1 maximumf,
    StableHlo.binary main_v43 main_arg9 main_v44 ((fun l r => Host.dotGeneral dot_S4x50000x128_S4x128x128_S4x50000x128_2_1_1_2_0_0 none l r) : (⟨S4x50000x128, .f32⟩ : BufTy).Contents (Elt F) → (⟨S4x128x128, .f32⟩ : BufTy).Contents (Elt F) → (⟨S4x50000x128, .f32⟩ : BufTy).Contents (Elt F)),
    StableHlo.unary main_arg10 main_v45 (broadcastInDim S4x1x128 ![0, 2] bcast_S4x128_S4x1x128_0_2 : (⟨S4x128, .f32⟩ : BufTy).Contents (Elt F) → (⟨S4x1x128, .f32⟩ : BufTy).Contents (Elt F)),
    StableHlo.unary main_v45 main_v46 (broadcastInDim S4x50000x128 ![0, 1, 2] bcast_S4x1x128_S4x50000x128_0_1_2 : (⟨S4x1x128, .f32⟩ : BufTy).Contents (Elt F) → (⟨S4x50000x128, .f32⟩ : BufTy).Contents (Elt F)),
    StableHlo.binary main_v44 main_v46 main_v47 (addf : (⟨S4x50000x128, .f32⟩ : BufTy).Contents (Elt F) → (⟨S4x50000x128, .f32⟩ : BufTy).Contents (Elt F) → (⟨S4x50000x128, .f32⟩ : BufTy).Contents (Elt F)),
    StableHlo.binary main_arg0 main_arg3 main_v48 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v49 (broadcastInDim S1x128 ![1] bcast_S128_S1x128_1 : (⟨S128, .f32⟩ : BufTy).Contents (Elt F) → (⟨S1x128, .f32⟩ : BufTy).Contents (Elt F)),
    StableHlo.unary main_v49 main_v50 (broadcastInDim S50000x128 ![0, 1] bcast_S1x128_S50000x128_0_1 : (⟨S1x128, .f32⟩ : BufTy).Contents (Elt F) → (⟨S50000x128, .f32⟩ : BufTy).Contents (Elt F)),
    StableHlo.binary main_v48 main_v50 main_v51 (addf : (⟨S50000x128, .f32⟩ : BufTy).Contents (Elt F) → (⟨S50000x128, .f32⟩ : BufTy).Contents (Elt F) → (⟨S50000x128, .f32⟩ : BufTy).Contents (Elt F)),
    StableHlo.nullary main_cst_6 (constant S_ .f32 0x00000000#32),
    StableHlo.binary main_v47 main_cst_6 main_v52 ((fun x v => Host.reduceAdd x v reducesTo_S4x50000x128_S50000x128_d0 h_S_) : (⟨S4x50000x128, .f32⟩ : BufTy).Contents (Elt F) → (⟨S_, .f32⟩ : BufTy).Contents (Elt F) → (⟨S50000x128, .f32⟩ : BufTy).Contents (Elt F)),
    StableHlo.binary main_v51 main_v52 main_v53 (addf : (⟨S50000x128, .f32⟩ : BufTy).Contents (Elt F) → (⟨S50000x128, .f32⟩ : BufTy).Contents (Elt F) → (⟨S50000x128, .f32⟩ : BufTy).Contents (Elt F)) ]

/-- @main is that straight line: its two windows and the called functions unfolded, the records read at their fields,
    sequencing re-associated to the right; the two sides compute to the same chain of steps. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., unary_bufs_sub .., ternary_bufs_sub .., reshape_bufs_sub .., unary_bufs_sub .., unary_bufs_sub ..,
    binary_bufs_sub .., binary_bufs_sub .., unary_bufs_sub .., unary_bufs_sub .., binary_bufs_sub .., nullary_bufs_sub ..,
    binary_bufs_sub .., unary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub .., unary_bufs_sub .., unary_bufs_sub .., ternary_bufs_sub .., unary_bufs_sub ..,
    binary_bufs_sub .., nullary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., nullary_bufs_sub .., unary_bufs_sub .., binary_bufs_sub .., binary_bufs_sub .., unary_bufs_sub ..,
    unary_bufs_sub .., binary_bufs_sub .., binary_bufs_sub .., unary_bufs_sub .., unary_bufs_sub .., binary_bufs_sub ..,
    nullary_bufs_sub .., binary_bufs_sub .., binary_bufs_sub ..⟩

/-- The run as the fold of the operations over the launch contents, at every buffer. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

/-! No operation writes an argument buffer: the fold leaves each at its launch contents. -/

theorem arg0_eq (V : Valuation τ sig (Elt F)) :
    after ops V (Proc.devRef .tc main_arg0) = V (Proc.devRef .tc main_arg0) := by
  chain_rfl

theorem arg1_eq (V : Valuation τ sig (Elt F)) :
    after ops V (Proc.devRef .tc main_arg1) = V (Proc.devRef .tc main_arg1) := by
  chain_rfl

theorem arg2_eq (V : Valuation τ sig (Elt F)) :
    after ops V (Proc.devRef .tc main_arg2) = V (Proc.devRef .tc main_arg2) := by
  chain_rfl

theorem arg3_eq (V : Valuation τ sig (Elt F)) :
    after ops V (Proc.devRef .tc main_arg3) = V (Proc.devRef .tc main_arg3) := by
  chain_rfl

theorem arg4_eq (V : Valuation τ sig (Elt F)) :
    after ops V (Proc.devRef .tc main_arg4) = V (Proc.devRef .tc main_arg4) := by
  chain_rfl

theorem arg5_eq (V : Valuation τ sig (Elt F)) :
    after ops V (Proc.devRef .tc main_arg5) = V (Proc.devRef .tc main_arg5) := by
  chain_rfl

theorem arg6_eq (V : Valuation τ sig (Elt F)) :
    after ops V (Proc.devRef .tc main_arg6) = V (Proc.devRef .tc main_arg6) := by
  chain_rfl

theorem arg7_eq (V : Valuation τ sig (Elt F)) :
    after ops V (Proc.devRef .tc main_arg7) = V (Proc.devRef .tc main_arg7) := by
  chain_rfl

theorem arg8_eq (V : Valuation τ sig (Elt F)) :
    after ops V (Proc.devRef .tc main_arg8) = V (Proc.devRef .tc main_arg8) := by
  chain_rfl

theorem arg9_eq (V : Valuation τ sig (Elt F)) :
    after ops V (Proc.devRef .tc main_arg9) = V (Proc.devRef .tc main_arg9) := by
  chain_rfl

theorem arg10_eq (V : Valuation τ sig (Elt F)) :
    after ops V (Proc.devRef .tc main_arg10) = V (Proc.devRef .tc main_arg10) := by
  chain_rfl

/-- The fold at the result buffer is the stages' composition of the arguments' contents. -/
theorem out_eq (V : Valuation τ sig (Elt F)) :
    after ops V (Proc.devRef .tc main_v53)
      = Stages.result (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  chain_rfl

/-- On every device, for any float values, from any memory with zero counters: every weakly fair execution of @main
    terminates with the result at the stages' composition of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v53) = Stages.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v53).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _)⟩)
    (run_main m ρ)

end Cert.ReferenceIdeal.RefRun

end
-- ==== Proof.LibBatchDot.lean ====
import Idealize.ShloMosaic.PureOps.Ideal.Laws
import Idealize.ShloMosaic.Lib.ValueIdx
import Idealize.ShloMosaic.PureOps.Dims

/-!
  A batched matrix product: a left operand of shape [B, M, K] and a right operand of shape [B, K, N], the batch axis 0
  of both paired, the left axis 2 contracted against the right axis 1, give a result of shape [B, M, N] whose entry
  (b, p, q) is the sum over k < K of l(b, p, k) · r(b, k, q). The dimension record is a variable and its six lists are
  hypotheses, so the lemma applies to every record of this shape.
-/

open scoped BigOperators

namespace Cert.Lib.BatchDot

open Idealize.ShloMosaic Idealize.ShloMosaic.ValueIdx

variable {B M K N : Nat} (d : DotDims ⟨3, ![B, M, K]⟩ ⟨3, ![B, K, N]⟩ ⟨3, ![B, M, N]⟩)

/-- Reading an index at two positions that are the same number gives the same coordinate. -/
theorem coord_val_congr {s : Shape} (j : s.Idx) (m n : Nat) (hm : m < s.rank) (hn : n < s.rank) (e : m = n) :
    (j ⟨m, hm⟩).val = (j ⟨n, hn⟩).val := by
  subst e; rfl

/-- A single contracted axis makes the contraction shape one-dimensional. -/
theorem contr_rank (hlc : d.lhsContracting = [2]) : d.contr.rank = 1 := by
  rw [d.rank_contr, hlc]; rfl

/-- That one dimension has the extent K of the left operand's last axis. -/
theorem contr_size (hlc : d.lhsContracting = [2]) :
    d.contr.size ⟨0, by rw [contr_rank d hlc]; exact Nat.one_pos⟩ = K := by
  have hpos : 0 < d.lhsContracting.length := by rw [hlc]; exact Nat.one_pos
  rw [d.size_contr 0 hpos]
  have hax : d.lhsContracting[0] = 2 := by simp [hlc]
  rw [hax]; rfl

/-- On its batch axis 0 the left operand's index is the result index's batch coordinate. -/
theorem lhsIdx_batch_val (hlb : d.lhsBatch = [0]) (j : (⟨3, ![B, M, N]⟩ : Shape).Idx) (k : d.contr.Idx) :
    (d.lhsIdx j k 0).val = (j 0).val := by
  have hb : (0 : Fin (⟨3, ![B, M, K]⟩ : Shape).rank) ∈ d.lhsBatch := by rw [hlb]; exact List.mem_singleton.mpr rfl
  unfold DotDims.lhsIdx
  rw [dif_pos hb]
  simp only [Fin.val_cast]
  exact coord_val_congr j _ 0 _ (Nat.succ_pos 2) (by simp [hlb])

/-- On its free axis 1 the left operand's index is the result index's row coordinate (the result's axis 1, after the
    one batch axis). -/
theorem lhsIdx_row_val (hln : d.lhsNonContracting = [1]) (hlb : d.lhsBatch = [0])
    (j : (⟨3, ![B, M, N]⟩ : Shape).Idx) (k : d.contr.Idx) : (d.lhsIdx j k 1).val = (j 1).val := by
  have hb : (1 : Fin (⟨3, ![B, M, K]⟩ : Shape).rank) ∉ d.lhsBatch := by
    rw [hlb]; intro h
    exact absurd (congrArg Fin.val (List.mem_singleton.mp h)) (by show (1 : ℕ) ≠ 0; omega)
  have hn : (1 : Fin (⟨3, ![B, M, K]⟩ : Shape).rank) ∈ d.lhsNonContracting := by rw [hln]; exact List.mem_singleton.mpr rfl
  unfold DotDims.lhsIdx
  rw [dif_neg hb, dif_pos hn]
  simp only [Fin.val_cast]
  exact coord_val_congr j _ 1 _ (by show (1 : ℕ) < 3; omega) (by simp [hlb, hln])

/-- On its batch axis 0 the right operand's index is the result index's batch coordinate. -/
theorem rhsIdx_batch_val (hrb : d.rhsBatch = [0]) (j : (⟨3, ![B, M, N]⟩ : Shape).Idx) (k : d.contr.Idx) :
    (d.rhsIdx j k 0).val = (j 0).val := by
  have hb : (0 : Fin (⟨3, ![B, K, N]⟩ : Shape).rank) ∈ d.rhsBatch := by rw [hrb]; exact List.mem_singleton.mpr rfl
  unfold DotDims.rhsIdx
  rw [dif_pos hb]
  simp only [Fin.val_cast]
  exact coord_val_congr j _ 0 _ (Nat.succ_pos 2) (by simp [hrb])

/-- On its free axis 2 the right operand's index is the result index's column coordinate (the result's axis 2, after
    the batch axis and the left operand's free axis). -/
theorem rhsIdx_col_val (hln : d.lhsNonContracting = [1]) (hrn : d.rhsNonContracting = [2])
    (hlb : d.lhsBatch = [0]) (hrb : d.rhsBatch = [0])
    (j : (⟨3, ![B, M, N]⟩ : Shape).Idx) (k : d.contr.Idx) : (d.rhsIdx j k 2).val = (j 2).val := by
  have hb : (2 : Fin (⟨3, ![B, K, N]⟩ : Shape).rank) ∉ d.rhsBatch := by
    rw [hrb]; intro h
    exact absurd (congrArg Fin.val (List.mem_singleton.mp h)) (by show (2 : ℕ) ≠ 0; omega)
  have hn : (2 : Fin (⟨3, ![B, K, N]⟩ : Shape).rank) ∈ d.rhsNonContracting := by rw [hrn]; exact List.mem_singleton.mpr rfl
  unfold DotDims.rhsIdx
  rw [dif_neg hb, dif_pos hn]
  simp only [Fin.val_cast]
  exact coord_val_congr j _ 2 _ (by show (2 : ℕ) < 3; omega) (by simp [hlb, hln, hrn])

/-- The contraction sum of a batched matrix product at entry (b, p, q), summed over the one contraction coordinate, is
    the sum over k < K of l(b, p, k) · r(b, k, q). -/
theorem sum_eq (hlc : d.lhsContracting = [2]) (hrc : d.rhsContracting = [1])
    (hln : d.lhsNonContracting = [1]) (hrn : d.rhsNonContracting = [2])
    (hlb : d.lhsBatch = [0]) (hrb : d.rhsBatch = [0])
    (l : (⟨3, ![B, M, K]⟩ : Shape).Idx → EReal) (r : (⟨3, ![B, K, N]⟩ : Shape).Idx → EReal)
    (b : Fin B) (p : Fin M) (q : Fin N) :
    (∑ k : d.contr.Idx, l (d.lhsIdx (ix3 b p q) k) * r (d.rhsIdx (ix3 b p q) k))
      = ∑ k : Fin K, l (ix3 b p k) * r (ix3 b k q) := by
  have hr : d.contr.rank = 1 := contr_rank d hlc
  have hs : d.contr.size ⟨0, by omega⟩ = K := contr_size d hlc
  let e := contrEquiv1 d K hr hs
  rw [← Equiv.sum_comp e.symm (fun k => l (d.lhsIdx (ix3 b p q) k) * r (d.rhsIdx (ix3 b p q) k))]
  refine Finset.sum_congr rfl fun i _ => ?_
  have hL : d.lhsIdx (ix3 b p q) (e.symm i) = ix3 b p i := by
    funext a
    match a with
    | ⟨0, _⟩ => exact Fin.ext (lhsIdx_batch_val d hlb _ _)
    | ⟨1, _⟩ => exact Fin.ext (lhsIdx_row_val d hln hlb _ _)
    | ⟨2, _⟩ => exact Fin.ext ((d.lhsIdx_val_of_single hlc _ _).trans (contrEquiv1_symm_val d K hr hs i))
  have hR : d.rhsIdx (ix3 b p q) (e.symm i) = ix3 b i q := by
    funext a
    match a with
    | ⟨0, _⟩ => exact Fin.ext (rhsIdx_batch_val d hrb _ _)
    | ⟨1, _⟩ => exact Fin.ext ((d.rhsIdx_val_of_single hrc _ _).trans (contrEquiv1_symm_val d K hr hs i))
    | ⟨2, _⟩ => exact Fin.ext (rhsIdx_col_val d hln hrn hlb hrb _ _)
  show l _ * r _ = _
  rw [hL, hR]

/-- The host's batched matrix product, read at entry (b, p, q) at the ideal values, is the sum over k < K of
    l(b, p, k) · r(b, k, q), whatever the schedule. -/
theorem dotGeneral_apply {φ₁ φ₂ : FTy} (hlc : d.lhsContracting = [2]) (hrc : d.rhsContracting = [1])
    (hln : d.lhsNonContracting = [1]) (hrn : d.rhsNonContracting = [2])
    (hlb : d.lhsBatch = [0]) (hrb : d.rhsBatch = [0]) (prec : Option ContractPrecision) (sched : HostSchedule)
    (l : FVec Ideal ⟨3, ![B, M, K]⟩ φ₁) (r : FVec Ideal ⟨3, ![B, K, N]⟩ φ₂) (b : Fin B) (p : Fin M) (q : Fin N) :
    FloatOps.dotGeneral d prec sched l r (ix3 b p q) = ∑ k : Fin K, l (ix3 b p k) * r (ix3 b k q) := by
  rw [Ideal.dotGeneral_apply d prec sched l r (ix3 b p q)]
  exact sum_eq d hlc hrc hln hrn hlb hrb l r b p q

end Cert.Lib.BatchDot
-- ==== Proof.RValue.lean ====
import proofs.«105238_j51762945852038_1_alg».proof.Proof.Gen.ReferenceIdeal
import proofs.«105238_j51762945852038_1_alg».proof.Proof.RStages
import proofs.«105238_j51762945852038_1_alg».proof.Proof.Spec
import proofs.«105238_j51762945852038_1_alg».proof.Proof.LibPlainDot
import proofs.«105238_j51762945852038_1_alg».proof.Proof.LibBatchDot
import Idealize.ShloMosaic.Lib.Pipeline.Value
import Idealize.ShloMosaic.Lib.ValueLayout

/-!
  The reference's stages read entry by entry on the extended reals: its first linear layer is the specification's
  z, and everything after the statistics is the specification's result, the statistics' kept unit axis dropped.
-/

open scoped BigOperators

noncomputable section

namespace Cert.ReferenceIdeal.RefValue

open Cert.ReferenceIdeal Cert.ReferenceIdeal.Gen Idealize.ShloMosaic Idealize.ShloMosaic.ValueIdx

/-! ## The broadcasts read at an entry -/

/-- A scalar spread over any shape reads the scalar everywhere. -/
theorem bcScalar_apply {t : Shape} (hb : S_.BroadcastsInDim t (![] : Fin 0 → Fin t.rank)) (c : S_.Idx → EReal) (j : t.Idx) :
    broadcastInDim t ![] hb c j = c ix0 :=
  broadcastInDim_apply ![] hb c j ix0 (fun a => a.elim0)

/-- Node features repeated for every relation, [50000, 128] → [1, 50000, 128] → [4, 50000, 128], read at (r, n, f),
    are x(n, f). -/
theorem bcNodes_apply (h1 : S50000x128.BroadcastsInDim S1x50000x128 (![1, 2] : Fin 2 → Fin S1x50000x128.rank))
    (h2 : S1x50000x128.BroadcastsInDim S4x50000x128 (![0, 1, 2] : Fin 3 → Fin S4x50000x128.rank))
    (x : S50000x128.Idx → EReal) (r : Fin 4) (n : Fin 50000) (f : Fin 128) :
    broadcastInDim S4x50000x128 ![0, 1, 2] h2 (broadcastInDim S1x50000x128 ![1, 2] h1 x) (ix3 r n f) = x (ix2 n f) := by
  refine (broadcastInDim_apply ![0, 1, 2] h2 _ (ix3 r n f) (ix3 (0 : Fin 1) n f) ?_).trans
    (broadcastInDim_apply ![1, 2] h1 x (ix3 (0 : Fin 1) n f) (ix2 n f) ?_)
  · intro a
    match a with
    | ⟨0, _⟩ => rfl
    | ⟨1, _⟩ => rfl
    | ⟨2, _⟩ => rfl
  · intro a
    match a with
    | ⟨0, _⟩ => rfl
    | ⟨1, _⟩ => rfl

/-- A per-relation, per-channel array with a unit node axis, repeated along the nodes, read at (r, n, o), is its entry
    (r, 0, o). -/
theorem bcUnit_apply (h2 : S4x1x128.BroadcastsInDim S4x50000x128 (![0, 1, 2] : Fin 3 → Fin S4x50000x128.rank))
    (m : S4x1x128.Idx → EReal) (r : Fin 4) (n : Fin 50000) (o : Fin 128) :
    broadcastInDim S4x50000x128 ![0, 1, 2] h2 m (ix3 r n o) = m (ix3 r (0 : Fin 1) o) := by
  refine broadcastInDim_apply ![0, 1, 2] h2 m (ix3 r n o) (ix3 r (0 : Fin 1) o) ?_
  intro a
  match a with
  | ⟨0, _⟩ => rfl
  | ⟨1, _⟩ => rfl
  | ⟨2, _⟩ => rfl

/-- A [4, 128] array given a unit node axis, read at (r, 0, o), is its entry (r, o). -/
theorem bcIns_apply (h1 : S4x128.BroadcastsInDim S4x1x128 (![0, 2] : Fin 2 → Fin S4x1x128.rank))
    (v : S4x128.Idx → EReal) (r : Fin 4) (o : Fin 128) :
    broadcastInDim S4x1x128 ![0, 2] h1 v (ix3 r (0 : Fin 1) o) = v (ix2 r o) := by
  refine broadcastInDim_apply ![0, 2] h1 v (ix3 r (0 : Fin 1) o) (ix2 r o) ?_
  intro a
  match a with
  | ⟨0, _⟩ => rfl
  | ⟨1, _⟩ => rfl

/-- A [4, 128] array repeated along the nodes, read at (r, n, o), is its entry (r, o). -/
theorem bcRow_apply (v : FVec Ideal S4x128 .f32) (r : Fin 4) (n : Fin 50000) (o : Fin 128) :
    Stages.bcRow (F := Ideal) v (ix3 r n o) = v (ix2 r o) := by
  unfold Stages.bcRow
  exact (bcUnit_apply _ _ r n o).trans (bcIns_apply _ v r o)

/-- The self-loop bias repeated along the nodes, [128] → [1, 128] → [50000, 128], read at (n, p), is its entry p. -/
theorem bcBias_apply (h1 : S128.BroadcastsInDim S1x128 (![1] : Fin 1 → Fin S1x128.rank))
    (h2 : S1x128.BroadcastsInDim S50000x128 (![0, 1] : Fin 2 → Fin S50000x128.rank))
    (bs : S128.Idx → EReal) (n : Fin 50000) (p : Fin 128) :
    broadcastInDim S50000x128 ![0, 1] h2 (broadcastInDim S1x128 ![1] h1 bs) (ix2 n p) = bs (ix1 p) := by
  refine (broadcastInDim_apply ![0, 1] h2 _ (ix2 n p) (ix2 (0 : Fin 1) p) ?_).trans
    (broadcastInDim_apply ![1] h1 bs (ix2 (0 : Fin 1) p) (ix1 p) ?_)
  · intro a
    match a with
    | ⟨0, _⟩ => rfl
    | ⟨1, _⟩ => rfl
  · intro a
    match a with
    | ⟨0, _⟩ => rfl

/-! ## The sum over the relations -/

/-- The node index (n, p) with relation r put back in front is (r, n, p). -/
theorem lift_rel (hr : S4x50000x128.Reduces [0] S50000x128) (n : Fin 50000) (p : Fin 128) (k : Fin (S4x50000x128.size 0)) :
    hr.lift (ix2 n p) k = ix3 (⟨k.val, k.isLt⟩ : Fin 4) n p := by
  funext c; apply Fin.ext
  match c with
  | ⟨0, _⟩ => rfl
  | ⟨1, _⟩ => rfl
  | ⟨2, _⟩ => rfl

/-- The host's sum over the relation axis onto a start value, read at (n, p), is the start value plus the sum over the
    four relations of the entries (r, n, p). -/
theorem reduceRel_apply (h' : S4x50000x128.ReducesTo [0] S50000x128) (hu : 0 < S_.numel)
    (v : FVec Ideal S4x50000x128 .f32) (c : FVec Ideal S_ .f32) (n : Fin 50000) (p : Fin 128) :
    Host.reduceAdd v c h' hu (ix2 n p) = c (Shape.Idx.first hu) + ∑ r : Fin 4, v (ix3 r n p) := by
  have hr : S4x50000x128.Reduces [0] S50000x128 := by decide
  unfold Host.reduceAdd
  rw [Ideal.hostReduceAdd_def]
  refine (Ideal.hostReduceAdd_single h' hr v _ (ix2 n p)).trans ?_
  refine congrArg (fun s => c (Shape.Idx.first hu) + s) ?_
  show ∑ k : Fin 4, v (hr.lift (ix2 n p) k) = ∑ r : Fin 4, v (ix3 r n p)
  exact Finset.sum_congr rfl fun k _ => congrArg v (lift_rel hr n p k)

/-- The reference's first linear layer is the specification's z. -/
theorem hpre_eq (x : FVec Ideal S50000x128 .f32) (A : FVec Ideal S4x50000x128 .f32) (W1 : FVec Ideal S4x128x128 .f32)
    (b1 : FVec Ideal S4x128 .f32) : Stages.hpre (F := Ideal) x A W1 b1 = Cert.Spec.Z (Nn := 50000) x A W1 b1 := by
  funext i
  obtain ⟨r, n, o, rfl⟩ : ∃ r n o, i = ix3 r n o := ⟨i 0, i 1, i 2, eq_ix3 i⟩
  show _ = Cert.Spec.lin1 x A W1 b1 r n o
  unfold Stages.hpre Cert.Spec.lin1
  simp only [Host.dotGeneral]
  rw [addf_apply, bcRow_apply, Cert.Lib.BatchDot.dotGeneral_apply _ rfl rfl rfl rfl rfl rfl]
  refine congrArg (fun s => s + b1 (ix2 r o)) ?_
  refine Finset.sum_congr rfl fun f _ => ?_
  rw [addf_apply, bcNodes_apply]

/-- Everything after the statistics is the specification's result, when the [4, 1, 128] statistics the reference
    uses and the [4, 128] ones the specification takes agree entry by entry. -/
theorem out_eq (h : FVec Ideal S4x50000x128 .f32) (mean var : FVec Ideal S4x1x128 .f32) (mean2 var2 : FVec Ideal S4x128 .f32)
    (hm : ∀ (r : Fin 4) (o : Fin 128), mean (ix3 r (0 : Fin 1) o) = mean2 (ix2 r o))
    (hv : ∀ (r : Fin 4) (o : Fin 128), var (ix3 r (0 : Fin 1) o) = var2 (ix2 r o))
    (gamma beta : FVec Ideal S4x128 .f32) (W2 : FVec Ideal S4x128x128 .f32) (b2 : FVec Ideal S4x128 .f32)
    (x : FVec Ideal S50000x128 .f32) (Ws : FVec Ideal S128x128 .f32) (bs : FVec Ideal S128 .f32) :
    Stages.out (F := Ideal) h mean var gamma beta W2 b2 x Ws bs = Cert.Spec.O (Nn := 50000) h mean2 var2 gamma beta W2 b2 x Ws bs := by
  funext i
  obtain ⟨n, p, rfl⟩ : ∃ n p, i = ix2 n p := ⟨i 0, i 1, eq_ix2 i⟩
  show _ = Cert.Spec.outAt h mean2 var2 gamma beta W2 b2 x Ws bs n p
  unfold Cert.Spec.outAt
  rw [Cert.Spec.acc_eq_sum Cert.Spec.zeroW (fun r => Cert.Spec.lin2 h mean2 var2 gamma beta W2 b2 r n p)]
  simp only [Stages.out, Host.dotGeneral]
  rw [addf_apply, reduceRel_apply, addf_apply, bcBias_apply,
    Cert.Lib.PlainDot.dotGeneral_apply _ rfl rfl rfl rfl rfl rfl]
  refine congrArg₂ (· + ·) rfl (congrArg₂ (· + ·) rfl (Finset.sum_congr rfl fun r _ => ?_))
  unfold Cert.Spec.lin2
  rw [addf_apply, bcRow_apply, Cert.Lib.BatchDot.dotGeneral_apply _ rfl rfl rfl rfl rfl rfl]
  refine congrArg (fun s => s + b2 (ix2 r p)) (Finset.sum_congr rfl fun o _ => ?_)
  refine congrArg (fun s => s * W2 (ix3 r o p)) ?_
  unfold Cert.Spec.act
  rw [maximumf_apply, addf_apply, mulf_apply, mulf_apply, subf_apply, bcRow_apply, bcRow_apply, bcUnit_apply,
    bcUnit_apply, bcScalar_apply, hm]
  unfold Host.rsqrt
  rw [Ideal.hostUnary_rsqrt_def, addf_apply, bcScalar_apply, hv]
  rfl

end Cert.ReferenceIdeal.RefValue

end
-- ==== Proof.Bridge.lean ====
import proofs.«105238_j51762945852038_1_alg».proof.Proof.KValue
import proofs.«105238_j51762945852038_1_alg».proof.Proof.RValue
import Idealize.ShloMosaic.Lib.Pipeline.Value
import Idealize.ShloMosaic.Lib.ValueIdx

/-!
  The two programs compute one function of the arguments, on the extended reals.

  Their first 22 host operations are the same text, so the neighbour sums A are the same term. The reference's first
  linear layer is the specification's z (the value the kernel's first region writes). The statistics differ only in a
  kept unit axis: the reference's mean and variance at (r, 0, o) are the kernel program's at (r, o), the sums over the
  nodes being the same term on both sides. Everything after the statistics is the specification's result formula.
-/

noncomputable section

namespace Cert.Bridge

open Idealize.ShloMosaic Idealize.ShloMosaic.ValueIdx

/-- The neighbour sums are one function of the arguments in both programs. -/
theorem agg_eq (x : FVec Ideal ⟨2, ![50000, 128]⟩ .f32) (ei : IVec ⟨2, ![2, 600000]⟩ 32) (et : IVec ⟨1, ![600000]⟩ 32) :
    Cert.ReferenceIdeal.Stages.agg (F := Ideal) x ei et = Cert.KernelIdeal.Stages.agg (F := Ideal) x ei et := rfl

/-- A scalar splat read at any index is the scalar. -/
theorem splat_apply {α : Type} (t : Shape) (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ _ _ j ix0 (fun a => a.elim0)

/-- The reference's mean, with its kept unit axis, is the kernel program's mean. -/
theorem mean_rel (z : FVec Ideal ⟨3, ![4, 50000, 128]⟩ .f32) (r : Fin 4) (o : Fin 128) :
    Cert.ReferenceIdeal.Stages.mean3 (F := Ideal) z (ix3 r (0 : Fin 1) o) = Cert.KernelIdeal.Stages.mean2 (F := Ideal) z (ix2 r o) := by
  unfold Cert.ReferenceIdeal.Stages.mean3 Cert.KernelIdeal.Stages.mean2 Host.divf
  show FloatOps.hostDivf _ _ = FloatOps.hostDivf _ _
  rw [broadcastInDim_apply _ _ _ (ix3 r (0 : Fin 1) o) (ix2 r o) (by intro a; match a with | ⟨0, _⟩ => rfl | ⟨1, _⟩ => rfl),
    broadcastInDim_apply _ _ _ (ix3 r (0 : Fin 1) o) ix0 (fun a => a.elim0),
    broadcastInDim_apply _ _ _ (ix2 r o) ix0 (fun a => a.elim0)]

/-- The centred squares are one function of the first layer in both programs. -/
theorem sq_eq (z : FVec Ideal ⟨3, ![4, 50000, 128]⟩ .f32) :
    Cert.ReferenceIdeal.Stages.sq (F := Ideal) z = Cert.KernelIdeal.Stages.sq (F := Ideal) z := rfl

/-- The reference's variance, with its kept unit axis, is the kernel program's variance. -/
theorem var_rel (z : FVec Ideal ⟨3, ![4, 50000, 128]⟩ .f32) (r : Fin 4) (o : Fin 128) :
    Cert.ReferenceIdeal.Stages.var3 (F := Ideal) z (ix3 r (0 : Fin 1) o) = Cert.KernelIdeal.Stages.var2 (F := Ideal) z (ix2 r o) := by
  unfold Cert.ReferenceIdeal.Stages.var3 Cert.KernelIdeal.Stages.var2 Host.divf
  rw [sq_eq]
  simp only [select_apply, splat_apply]
  rw [broadcastInDim_apply _ _ _ (ix3 r (0 : Fin 1) o) (ix2 r o) (by intro a; match a with | ⟨0, _⟩ => rfl | ⟨1, _⟩ => rfl)]
  rfl

/-- The reference's result and the kernel program's result are one function of the eleven arguments. -/
theorem result_eq (x : FVec Ideal ⟨2, ![50000, 128]⟩ .f32) (ei : IVec ⟨2, ![2, 600000]⟩ 32) (et : IVec ⟨1, ![600000]⟩ 32)
    (Ws : FVec Ideal ⟨2, ![128, 128]⟩ .f32) (bs : FVec Ideal ⟨1, ![128]⟩ .f32) (W1 : FVec Ideal ⟨3, ![4, 128, 128]⟩ .f32)
    (b1 gamma beta : FVec Ideal ⟨2, ![4, 128]⟩ .f32) (W2 : FVec Ideal ⟨3, ![4, 128, 128]⟩ .f32) (b2 : FVec Ideal ⟨2, ![4, 128]⟩ .f32) :
    Cert.ReferenceIdeal.Stages.result (F := Ideal) x ei et Ws bs W1 b1 gamma beta W2 b2
      = Cert.KernelIdeal.Value.result x ei et Ws bs W1 b1 gamma beta W2 b2 := by
  unfold Cert.ReferenceIdeal.Stages.result Cert.KernelIdeal.Value.result
  dsimp only
  rw [Cert.ReferenceIdeal.RefValue.hpre_eq, agg_eq]
  exact Cert.ReferenceIdeal.RefValue.out_eq _ _ _ _ _ (fun r o => mean_rel _ r o) (fun r o => var_rel _ r o) _ _ _ _ _ _ _

end Cert.Bridge

end
-- ==== Proof.lean ====
/-
  The certificate's proof: the kernel's program (a host gather and scatter-add for the neighbour sums, a first Pallas
  region for the per-relation linear layer, host sums for its mean and variance, a second Pallas region for
  normalise-rectify-linear summed over the relations plus the self loop) against the plain reference.

  The three frames: the kernel's two are the generated frame certificates; the reference's is its run with the result
  dropped. The idealization rewrote nothing, so the preservation conjunct is trivial. For the value conjunct both runs
  are read as one function of the eleven arguments (`Cert.KernelIdeal.Value.result`): the kernel side through the two
  regions' output arrays (each block is the specification's formula of its rows, the blocks tile the arrays), the
  reference side through its stages read entry by entry, joined in Proof/Bridge.lean. No law beyond associativity of
  addition on the extended reals is used, so the finiteness precondition is never opened.
-/
import proofs.«105238_j51762945852038_1_alg».proof.Defs
import proofs.«105238_j51762945852038_1_alg».proof.Proof.Gen.Kernel
import proofs.«105238_j51762945852038_1_alg».proof.Proof.Gen.Kernel.Skeleton
import proofs.«105238_j51762945852038_1_alg».proof.Proof.Gen.Kernel.Launch
import proofs.«105238_j51762945852038_1_alg».proof.Proof.Gen.Kernel.Points
import proofs.«105238_j51762945852038_1_alg».proof.Proof.Gen.Kernel.Frame
import proofs.«105238_j51762945852038_1_alg».proof.Proof.Gen.KernelIdeal
import proofs.«105238_j51762945852038_1_alg».proof.Proof.Gen.KernelIdeal.Skeleton
import proofs.«105238_j51762945852038_1_alg».proof.Proof.Gen.KernelIdeal.Launch
import proofs.«105238_j51762945852038_1_alg».proof.Proof.Gen.KernelIdeal.Points
import proofs.«105238_j51762945852038_1_alg».proof.Proof.Gen.KernelIdeal.Frame
import proofs.«105238_j51762945852038_1_alg».proof.Proof.Gen.ReferenceIdeal
import proofs.«105238_j51762945852038_1_alg».proof.Proof.Gen.Pre_finite_inputs
import proofs.«105238_j51762945852038_1_alg».proof.Proof.KValue
import proofs.«105238_j51762945852038_1_alg».proof.Proof.RRun
import proofs.«105238_j51762945852038_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.RefRun.run (F := Ideal) m ρ)

/-- Both programs end with their result at one function of arguments that agree. -/
theorem algebraic : Cert.algebraic_KernelIdeal_ReferenceIdeal := by
  intro m ρ m' ρ' _ hagree
  refine ⟨_, Cert.KernelIdeal.Value.run m ρ, ?_⟩
  refine (θ_run Cert.ReferenceIdeal.defs _ _).mono (fun _ h c => ⟨(h c).1.trans ?_, (h c).2⟩)
    (Cert.ReferenceIdeal.RefRun.run (F := Ideal) m' ρ')
  obtain ⟨e0, e1, e2, e3, e4, e5, e6, e7, e8, e9, e10⟩ := hagree c
  rw [e0, e1, e2, e3, e4, e5, e6, e7, e8, e9, e10]
  exact Cert.Bridge.result_eq _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
